-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x14336 : Shape := ⟨2, ![64, 14336]⟩
abbrev S16384x448 : Shape := ⟨2, ![16384, 448]⟩
abbrev S16384 : Shape := ⟨1, ![16384]⟩
abbrev S_ : Shape := ⟨0, ![]⟩

class Facts : Prop where
  bcast_S_S64x14336 : S_.BroadcastsInDim S64x14336 (![] : Fin 0 → Fin S64x14336.rank)
  reducesTo_S64x14336_S_d0_1 : S64x14336.ReducesTo [0, 1] S_
  h_S_ : 0 < S_.numel
  bcast_S_S16384x448 : S_.BroadcastsInDim S16384x448 (![] : Fin 0 → Fin S16384x448.rank)
  reducesTo_S16384x448_S_d0_1 : S16384x448.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S64x14336 .f32) (main_arg1 : FVec F S16384x448 .f32) (main_arg2 : IVec S16384 32) : IVec S_ 1 :=
  let main_v0 : FVec F S64x14336 .f32 := Host.absf main_arg0
  let main_cst : FVec F S_ .f32 := constant S_ .f32 0x7F800000#32
  let main_v1 : FVec F S64x14336 .f32 := broadcastInDim S64x14336 ![] bcast_S_S64x14336 main_cst
  let main_v2 : IVec S64x14336 1 := cmpf .olt main_v0 main_v1
  let main_c : IVec S_ 1 := constantI S_ 1 1#1
  let main_v3 : IVec S_ 1 := (fun x v => Host.reduce IntOp.andi x v reducesTo_S64x14336_S_d0_1 h_S_) main_v2 main_c
  let main_v4 : FVec F S16384x448 .f32 := Host.absf main_arg1
  let main_cst_0 : FVec F S_ .f32 := constant S_ .f32 0x7F800000#32
  let main_v5 : FVec F S16384x448 .f32 := broadcastInDim S16384x448 ![] bcast_S_S16384x448 main_cst_0
  let main_v6 : IVec S16384x448 1 := cmpf .olt main_v4 main_v5
  let main_c_1 : IVec S_ 1 := constantI S_ 1 1#1
  let main_v7 : IVec S_ 1 := (fun x v => Host.reduce IntOp.andi x v reducesTo_S16384x448_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 64#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S64x14336 : Shape := ⟨2, ![64, 14336]⟩
abbrev S16384x448 : Shape := ⟨2, ![16384, 448]⟩
abbrev S16384 : Shape := ⟨1, ![16384]⟩
abbrev S16384x1 : Shape := ⟨2, ![16384, 1]⟩
abbrev S256x448 : Shape := ⟨2, ![256, 448]⟩
abbrev S256x1 : Shape := ⟨2, ![256, 1]⟩
abbrev S256x64 : Shape := ⟨2, ![256, 64]⟩
abbrev S64x9216 : Shape := ⟨2, ![64, 9216]⟩
abbrev S256x9216 : Shape := ⟨2, ![256, 9216]⟩
abbrev S256x96x96 : Shape := ⟨3, ![256, 96, 96]⟩
abbrev S256x96 : Shape := ⟨2, ![256, 96]⟩
abbrev S256x96x1 : Shape := ⟨3, ![256, 96, 1]⟩
abbrev S64x4096 : Shape := ⟨2, ![64, 4096]⟩
abbrev S256x4096 : Shape := ⟨2, ![256, 4096]⟩
abbrev S256x64x64 : Shape := ⟨3, ![256, 64, 64]⟩
abbrev S256x192 : Shape := ⟨2, ![256, 192]⟩
abbrev S256x64x3 : Shape := ⟨3, ![256, 64, 3]⟩
abbrev S64x1024 : Shape := ⟨2, ![64, 1024]⟩
abbrev S256x1024 : Shape := ⟨2, ![256, 1024]⟩
abbrev S256x32x32 : Shape := ⟨3, ![256, 32, 32]⟩
abbrev S256x160 : Shape := ⟨2, ![256, 160]⟩
abbrev S256x32x5 : Shape := ⟨3, ![256, 32, 5]⟩

abbrev nBuf : Space → Nat
  | .hbm => 5
  | .vmem => 7
  | .smem => 0
  | _ => 0

abbrev bufTy : (tb : Table) → Fin (tcTables nBuf tb) → BufTy
  | .hbm, ⟨0, _⟩ => ⟨S64x14336, .f32⟩
  | .hbm, ⟨1, _⟩ => ⟨S16384x448, .f32⟩
  | .hbm, ⟨2, _⟩ => ⟨S16384, .i32⟩
  | .hbm, ⟨3, _⟩ => ⟨S16384x1, .i32⟩
  | .hbm, ⟨4, _⟩ => ⟨S16384x448, .f32⟩
  | .local _ .vmem, ⟨0, _⟩ => ⟨S256x448, .f32⟩
  | .local _ .vmem, ⟨1, _⟩ => ⟨S256x448, .f32⟩
  | .local _ .vmem, ⟨2, _⟩ => ⟨S256x1, .i32⟩
  | .local _ .vmem, ⟨3, _⟩ => ⟨S256x1, .i32⟩
  | .local _ .vmem, ⟨4, _⟩ => ⟨S64x14336, .f32⟩
  | .local _ .vmem, ⟨5, _⟩ => ⟨S256x448, .f32⟩
  | .local _ .vmem, ⟨6, _⟩ => ⟨S256x448, .f32⟩
  | _, _ => ⟨S64x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16384_S16384x1 : S16384.ShapeCasts S16384x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x64_d1_w32 : S256x64.Iotas .tc 32 [1]
  broadcasts_S256x1_S256x64 : S256x1.Broadcasts S256x64
  natLt_1_32 : 1 < 32
  bitsLt_bf16_f32 : FTy.bits .bf16 < FTy.bits .f32
  inb_S256x448_S256x448_0_0 : ∀ a, (![0, 0] : Fin 2 → Nat) a + S256x448.size a ≤ S256x448.size a
  h_S256x448 : 0 < S256x448.numel
  inb_S64x14336_S64x14336_0_0 : ∀ a, (![0, 0] : Fin 2 → Nat) a + S64x14336.size a ≤ S64x14336.size a
  h_S64x14336 : 0 < S64x14336.numel
  slices_S64x14336_o0_0_S64x9216 : S64x14336.Slices ![0, 0] S64x9216
  shapeCasts_S256x9216_S256x96x96 : S256x9216.ShapeCasts S256x96x96
  slices_S256x448_o0_0_S256x96 : S256x448.Slices ![0, 0] S256x96
  shapeCasts_S256x96_S256x96x1 : S256x96.ShapeCasts S256x96x1
  shapeCasts_S256x96x1_S256x96 : S256x96x1.ShapeCasts S256x96
  slices_S64x14336_o0_9216_S64x4096 : S64x14336.Slices ![0, 9216] S64x4096
  shapeCasts_S256x4096_S256x64x64 : S256x4096.ShapeCasts S256x64x64
  slices_S256x448_o0_96_S256x192 : S256x448.Slices ![0, 96] S256x192
  shapeCasts_S256x192_S256x64x3 : S256x192.ShapeCasts S256x64x3
  shapeCasts_S256x64x3_S256x192 : S256x64x3.ShapeCasts S256x192
  slices_S64x14336_o0_13312_S64x1024 : S64x14336.Slices ![0, 13312] S64x1024
  shapeCasts_S256x1024_S256x32x32 : S256x1024.ShapeCasts S256x32x32
  slices_S256x448_o0_288_S256x160 : S256x448.Slices ![0, 288] S256x160
  shapeCasts_S256x160_S256x32x5 : S256x160.ShapeCasts S256x32x5
  shapeCasts_S256x32x5_S256x160 : S256x32x5.ShapeCasts S256x160
  concatenates_S256x96_S256x192_S256x160_S256x448_d1 : Shape.Concatenates [S256x96, S256x192, S256x160] S256x448 1
  dot_S256x64_S64x9216_S256x9216_1_0_0_1_n_n_wf : DotDims.WF S256x64 S64x9216 S256x9216 [1] [0] [0] [1] [] []
  dot_S256x96x96_S256x96x1_S256x96x1_1_1_2_2_0_0_wf : DotDims.WF S256x96x96 S256x96x1 S256x96x1 [1] [1] [2] [2] [0] [0]
  dot_S256x64_S64x4096_S256x4096_1_0_0_1_n_n_wf : DotDims.WF S256x64 S64x4096 S256x4096 [1] [0] [0] [1] [] []
  dot_S256x64x64_S256x64x3_S256x64x3_1_1_2_2_0_0_wf : DotDims.WF S256x64x64 S256x64x3 S256x64x3 [1] [1] [2] [2] [0] [0]
  dot_S256x64_S64x1024_S256x1024_1_0_0_1_n_n_wf : DotDims.WF S256x64 S64x1024 S256x1024 [1] [0] [0] [1] [] []
  dot_S256x32x32_S256x32x5_S256x32x5_1_1_2_2_0_0_wf : DotDims.WF S256x32x32 S256x32x5 S256x32x5 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x448.size a ≤ S16384x448.size a
  hwx0_0 : ∀ i : grid0.Coords, EltTy.bits .f32 = 32 ∨ (Rect.block (s := S16384x448) S256x448.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16384x1.size a
  hwx0_1 : ∀ i : grid0.Coords, EltTy.bits .i32 = 32 ∨ (Rect.block (s := S16384x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x14336.size a ≤ S64x14336.size a
  hwx0_2 : ∀ i : grid0.Coords, EltTy.bits .f32 = 32 ∨ (Rect.block (s := S64x14336) S64x14336.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x448.size a ≤ S16384x448.size a
  hwx0_3 : ∀ i : grid0.Coords, EltTy.bits .f32 = 32 ∨ (Rect.block (s := S16384x448) S256x448.size (cc0_transform_3 i) (hinb0_3 i)).WholeWords (EltTy.packing .f32)

variable [Facts₀]

def dot_S256x64_S64x9216_S256x9216_1_0_0_1_n_n : DotDims S256x64 S64x9216 S256x9216 where
  lhsContracting := [1]
  rhsContracting := [0]
  lhsNonContracting := [0]
  rhsNonContracting := [1]
  lhsBatch := []
  rhsBatch := []
  wf := dot_S256x64_S64x9216_S256x9216_1_0_0_1_n_n_wf
def dot_S256x96x96_S256x96x1_S256x96x1_1_1_2_2_0_0 : DotDims S256x96x96 S256x96x1 S256x96x1 where
  lhsContracting := [1]
  rhsContracting := [1]
  lhsNonContracting := [2]
  rhsNonContracting := [2]
  lhsBatch := [0]
  rhsBatch := [0]
  wf := dot_S256x96x96_S256x96x1_S256x96x1_1_1_2_2_0_0_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x64x64_S256x64x3_S256x64x3_1_1_2_2_0_0 : DotDims S256x64x64 S256x64x3 S256x64x3 where
  lhsContracting := [1]
  rhsContracting := [1]
  lhsNonContracting := [2]
  rhsNonContracting := [2]
  lhsBatch := [0]
  rhsBatch := [0]
  wf := dot_S256x64x64_S256x64x3_S256x64x3_1_1_2_2_0_0_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf
def dot_S256x32x32_S256x32x5_S256x32x5_1_1_2_2_0_0 : DotDims S256x32x32 S256x32x5 S256x32x5 where
  lhsContracting := [1]
  rhsContracting := [1]
  lhsNonContracting := [2]
  rhsNonContracting := [2]
  lhsBatch := [0]
  rhsBatch := [0]
  wf := dot_S256x32x32_S256x32x5_S256x32x5_1_1_2_2_0_0_wf

abbrev win0_0 : Pipeline.Window sig grid0 :=
  Pipeline.Window.ofSpec (Memref.whole main_arg1) S256x448.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S64x14336.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x448.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x14336 : Shape := ⟨2, ![64, 14336]⟩
abbrev S16384x448 : Shape := ⟨2, ![16384, 448]⟩
abbrev S16384 : Shape := ⟨1, ![16384]⟩
abbrev S64x9216 : Shape := ⟨2, ![64, 9216]⟩
abbrev S64x96x96 : Shape := ⟨3, ![64, 96, 96]⟩
abbrev S16384x96 : Shape := ⟨2, ![16384, 96]⟩
abbrev S16384x96x1 : Shape := ⟨3, ![16384, 96, 1]⟩
abbrev S_ : Shape := ⟨0, ![]⟩
abbrev S16384x1 : Shape := ⟨2, ![16384, 1]⟩
abbrev S16384x96x96 : Shape := ⟨3, ![16384, 96, 96]⟩
abbrev S64x4096 : Shape := ⟨2, ![64, 4096]⟩
abbrev S64x64x64 : Shape := ⟨3, ![64, 64, 64]⟩
abbrev S16384x192 : Shape := ⟨2, ![16384, 192]⟩
abbrev S16384x64x3 : Shape := ⟨3, ![16384, 64, 3]⟩
abbrev S16384x64x64 : Shape := ⟨3, ![16384, 64, 64]⟩
abbrev S64x1024 : Shape := ⟨2, ![64, 1024]⟩
abbrev S64x32x32 : Shape := ⟨3, ![64, 32, 32]⟩
abbrev S16384x160 : Shape := ⟨2, ![16384, 160]⟩
abbrev S16384x32x5 : Shape := ⟨3, ![16384, 32, 5]⟩
abbrev S16384x32x32 : Shape := ⟨3, ![16384, 32, 32]⟩

abbrev nBuf : Space → Nat
  | .hbm => 49
  | .vmem => 0
  | .smem => 0
  | _ => 0

abbrev bufTy : (tb : Table) → Fin (tcTables nBuf tb) → BufTy
  | .hbm, ⟨0, _⟩ => ⟨S64x14336, .f32⟩
  | .hbm, ⟨1, _⟩ => ⟨S16384x448, .f32⟩
  | .hbm, ⟨2, _⟩ => ⟨S16384, .i32⟩
  | .hbm, ⟨3, _⟩ => ⟨S64x9216, .f32⟩
  | .hbm, ⟨4, _⟩ => ⟨S64x96x96, .f32⟩
  | .hbm, ⟨5, _⟩ => ⟨S16384x96, .f32⟩
  | .hbm, ⟨6, _⟩ => ⟨S16384x96x1, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384x96x96, .f32⟩
  | .hbm, ⟨16, _⟩ => ⟨S16384x96x1, .f32⟩
  | .hbm, ⟨17, _⟩ => ⟨S16384x96, .f32⟩
  | .hbm, ⟨18, _⟩ => ⟨S64x4096, .f32⟩
  | .hbm, ⟨19, _⟩ => ⟨S64x64x64, .f32⟩
  | .hbm, ⟨20, _⟩ => ⟨S16384x192, .f32⟩
  | .hbm, ⟨21, _⟩ => ⟨S16384x64x3, .f32⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S16384x1, .i32⟩
  | .hbm, ⟨30, _⟩ => ⟨S16384x64x64, .f32⟩
  | .hbm, ⟨31, _⟩ => ⟨S16384x64x3, .f32⟩
  | .hbm, ⟨32, _⟩ => ⟨S16384x192, .f32⟩
  | .hbm, ⟨33, _⟩ => ⟨S64x1024, .f32⟩
  | .hbm, ⟨34, _⟩ => ⟨S64x32x32, .f32⟩
  | .hbm, ⟨35, _⟩ => ⟨S16384x160, .f32⟩
  | .hbm, ⟨36, _⟩ => ⟨S16384x32x5, .f32⟩
  | .hbm, ⟨37, _⟩ => ⟨S_, .i32⟩
  | .hbm, ⟨38, _⟩ => ⟨S16384, .i32⟩
  | .hbm, ⟨39, _⟩ => ⟨S16384, .i1⟩
  | .hbm, ⟨40, _⟩ => ⟨S_, .i32⟩
  | .hbm, ⟨41, _⟩ => ⟨S16384, .i32⟩
  | .hbm, ⟨42, _⟩ => ⟨S16384, .i32⟩
  | .hbm, ⟨43, _⟩ => ⟨S16384, .i32⟩
  | .hbm, ⟨44, _⟩ => ⟨S16384x1, .i32⟩
  | .hbm, ⟨45, _⟩ => ⟨S16384x32x32, .f32⟩
  | .hbm, ⟨46, _⟩ => ⟨S16384x32x5, .f32⟩
  | .hbm, ⟨47, _⟩ => ⟨S16384x160, .f32⟩
  | .hbm, ⟨48, _⟩ => ⟨S16384x448, .f32⟩
  | _, _ => ⟨S64x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_3 : Ref sig .tc := ⟨.hbm, 37, rfl⟩
abbrev main_v30 : Ref sig .tc := ⟨.hbm, 38, rfl⟩
abbrev main_v31 : Ref sig .tc := ⟨.hbm, 39, rfl⟩
abbrev main_c_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]

class Facts₀ : Prop where
  slices_S64x14336_S64x9216_0_0 : S64x14336.Slices ![0, 0] S64x9216
  shapeCasts_S64x9216_S64x96x96 : S64x9216.ShapeCasts S64x96x96
  slices_S16384x448_S16384x96_0_0 : S16384x448.Slices ![0, 0] S16384x96
  shapeCasts_S16384x96_S16384x96x1 : S16384x96.ShapeCasts S16384x96x1
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x96x1_S16384x96 : S16384x96x1.ShapeCasts S16384x96
  slices_S64x14336_S64x4096_0_9216 : S64x14336.Slices ![0, 9216] S64x4096
  shapeCasts_S64x4096_S64x64x64 : S64x4096.ShapeCasts S64x64x64
  slices_S16384x448_S16384x192_0_96 : S16384x448.Slices ![0, 96] S16384x192
  shapeCasts_S16384x192_S16384x64x3 : S16384x192.ShapeCasts S16384x64x3
  shapeCasts_S16384x64x3_S16384x192 : S16384x64x3.ShapeCasts S16384x192
  slices_S64x14336_S64x1024_0_13312 : S64x14336.Slices ![0, 13312] S64x1024
  shapeCasts_S64x1024_S64x32x32 : S64x1024.ShapeCasts S64x32x32
  slices_S16384x448_S16384x160_0_288 : S16384x448.Slices ![0, 288] S16384x160
  shapeCasts_S16384x160_S16384x32x5 : S16384x160.ShapeCasts S16384x32x5
  shapeCasts_S16384x32x5_S16384x160 : S16384x32x5.ShapeCasts S16384x160
  concatenates_S16384x96_S16384x192_S16384x160_S16384x448_d1 : Shape.Concatenates [S16384x96, S16384x192, S16384x160] S16384x448 1
  gather_S64x96x96_S16384x1_S16384x96x96_12_0_n_n_0_1_19696_wf : GatherDims.WF S64x96x96 S16384x1 S16384x96x96 [1, 2] [0] [] [0] [] 1 ![1, 96, 96]
  dot_S16384x96x96_S16384x96x1_S16384x96x1_1_1_2_2_0_0_wf : DotDims.WF S16384x96x96 S16384x96x1 S16384x96x1 [1] [1] [2] [2] [0] [0]
  gather_S64x64x64_S16384x1_S16384x64x64_12_0_n_n_0_1_16464_wf : GatherDims.WF S64x64x64 S16384x1 S16384x64x64 [1, 2] [0] [] [0] [] 1 ![1, 64, 64]
  dot_S16384x64x64_S16384x64x3_S16384x64x3_1_1_2_2_0_0_wf : DotDims.WF S16384x64x64 S16384x64x3 S16384x64x3 [1] [1] [2] [2] [0] [0]
  gather_S64x32x32_S16384x1_S16384x32x32_12_0_n_n_0_1_13232_wf : GatherDims.WF S64x32x32 S16384x1 S16384x32x32 [1, 2] [0] [] [0] [] 1 ![1, 32, 32]
  dot_S16384x32x32_S16384x32x5_S16384x32x5_1_1_2_2_0_0_wf : DotDims.WF S16384x32x32 S16384x32x5 S16384x32x5 [1] [1] [2] [2] [0] [0]

variable [Facts₀]

def gather_S64x96x96_S16384x1_S16384x96x96_12_0_n_n_0_1_19696 : GatherDims S64x96x96 S16384x1 S16384x96x96 where
  offsetDims := [1, 2]
  collapsedSliceDims := [0]
  operandBatchingDims := []
  startIndicesBatchingDims := []
  startIndexMap := [0]
  indexVectorDim := 1
  sliceSizes := ![1, 96, 96]
  wf := gather_S64x96x96_S16384x1_S16384x96x96_12_0_n_n_0_1_19696_wf
def dot_S16384x96x96_S16384x96x1_S16384x96x1_1_1_2_2_0_0 : DotDims S16384x96x96 S16384x96x1 S16384x96x1 where
  lhsContracting := [1]
  rhsContracting := [1]
  lhsNonContracting := [2]
  rhsNonContracting := [2]
  lhsBatch := [0]
  rhsBatch := [0]
  wf := dot_S16384x96x96_S16384x96x1_S16384x96x1_1_1_2_2_0_0_wf
def gather_S64x64x64_S16384x1_S16384x64x64_12_0_n_n_0_1_16464 : GatherDims S64x64x64 S16384x1 S16384x64x64 where
  offsetDims := [1, 2]
  collapsedSliceDims := [0]
  operandBatchingDims := []
  startIndicesBatchingDims := []
  startIndexMap := [0]
  indexVectorDim := 1
  sliceSizes := ![1, 64, 64]
  wf := gather_S64x64x64_S16384x1_S16384x64x64_12_0_n_n_0_1_16464_wf
def dot_S16384x64x64_S16384x64x3_S16384x64x3_1_1_2_2_0_0 : DotDims S16384x64x64 S16384x64x3 S16384x64x3 where
  lhsContracting := [1]
  rhsContracting := [1]
  lhsNonContracting := [2]
  rhsNonContracting := [2]
  lhsBatch := [0]
  rhsBatch := [0]
  wf := dot_S16384x64x64_S16384x64x3_S16384x64x3_1_1_2_2_0_0_wf
def gather_S64x32x32_S16384x1_S16384x32x32_12_0_n_n_0_1_13232 : GatherDims S64x32x32 S16384x1 S16384x32x32 where
  offsetDims := [1, 2]
  collapsedSliceDims := [0]
  operandBatchingDims := []
  startIndicesBatchingDims := []
  startIndexMap := [0]
  indexVectorDim := 1
  sliceSizes := ![1, 32, 32]
  wf := gather_S64x32x32_S16384x1_S16384x32x32_12_0_n_n_0_1_13232_wf
def dot_S16384x32x32_S16384x32x5_S16384x32x5_1_1_2_2_0_0 : DotDims S16384x32x32 S16384x32x5 S16384x32x5 where
  lhsContracting := [1]
  rhsContracting := [1]
  lhsNonContracting := [2]
  rhsNonContracting := [2]
  lhsBatch := [0]
  rhsBatch := [0]
  wf := dot_S16384x32x32_S16384x32x5_S16384x32x5_1_1_2_2_0_0_wf

class Facts : Prop extends Facts₀ where

variable [Facts]
-- ==== Proof.PreRange.lean ====
/-
  What the precondition says of the index vector: every index word, read as a natural number, is below 64.
-/
import proofs.«400696_j46497315947084_1_alg».proof.Defs
import proofs.«400696_j46497315947084_1_alg».proof.Proof.Gen.Pre_finite_inputs
import Idealize.ShloMosaic.Lib.ReduceAll
import Idealize.ShloMosaic.Lib.ValueIdx
import Idealize.ShloMosaic.Lib.StableHlo.Predicate

noncomputable section

namespace Cert.SegLinear.PreRange

open Idealize.ShloMosaic Idealize.ShloMosaic.ValueIdx Cert.Pre_finite_inputs Cert.Pre_finite_inputs.Gen

/-- A 32-bit word that is at least 0 and below 64 as a SIGNED number is below 64 as a natural number: a word whose
    top bit is set reads as a negative number, which the first comparison excludes; any other word reads the same
    both ways, and the second comparison bounds it. -/
theorem toNat_lt_of_signed_range (w : BitVec 32) (h0 : IntOp.cmpi .sge w 0#32 = 1#1)
    (h1 : IntOp.cmpi .slt w 64#32 = 1#1) : w.toNat < 64 := by
  have a0 : (0#32 : BitVec 32).toInt ≤ w.toInt := IntOp.cmpi_sge.1 h0
  have a1 : w.toInt < (64#32 : BitVec 32).toInt := IntOp.cmpi_slt.1 h1
  have z : (0#32 : BitVec 32).toInt = 0 := by decide
  have s : (64#32 : BitVec 32).toInt = 64 := by decide
  rw [z] at a0
  rw [s] at a1
  have hw := w.isLt
  rw [BitVec.toInt_eq_toNat_cond] at a0 a1
  split at a0 <;> omega

/-- The precondition's third conjunct, decoded: `0 ≤ idx[b] < 64` as signed words, so the word is below 64 as a
    natural number. For any float instance. -/
theorem idx_lt_of_pre {F : FTy → Type} [FloatOps F] (a0 : FVec F S64x14336 .f32) (a1 : FVec F S16384x448 .f32)
    (a2 : IVec S16384 32) (h : Cert.Pre_finite_inputs.fn (F := F) a0 a1 a2 = fun _ => 1#1) (b : Fin 16384) :
    (a2 (ix1 b)).toNat < 64 := by
  -- the predicate at its one (scalar) index
  have e := congrFun h ValueIdx.ix0
  dsimp only [Cert.Pre_finite_inputs.fn] at e
  -- the last `and`: its right operand, the all-reduction over the index vector, is 1
  have e14 := (IntOp.andi_eq_one.1 e).2
  -- the scalar shape has one index (there is no axis to disagree on), so the reduction runs over every element;
  -- an all-reduction that is 1 had a 1 at every element: take element b
  haveI : Subsingleton S_.Idx := ⟨fun _ _ => funext fun d => d.elim0⟩
  have el := Host.reduce_andi_all _ _ _ _ _ e14 (ix1 b)
  -- that element is the `and` of the two signed comparisons of idx[b] against the broadcast constants 0 and 64
  obtain ⟨h0, h1⟩ := IntOp.andi_eq_one.1 el
  exact toNat_lt_of_signed_range _ h0 h1

end Cert.SegLinear.PreRange

end
-- ==== Proof.Spec.lean ====
/-
  The function both programs compute, index by index.

  A weight table `W` of 64 rows and 14336 columns holds, per row, three square matrices laid flat one after
  the other: 96 × 96 at column 0, 64 × 64 at column 9216, 32 × 32 at column 13312. An input `X` of 16384 rows
  and 448 columns holds, per row, three blocks: 96 × 1 at column 0, 64 × 3 at column 96, 32 × 5 at column 288.
  Row `b` of the result is, block by block, the input block contracted with the matrix of the weight row that
  `b`'s index word names:  y[b, o, c] = Σ_i W[row b, i, o] · X[b, i, c],  laid flat as column o · d + c of the
  block (d = 1, 3, 5), the three result blocks side by side (96, 192 and 160 columns).
-/
import Idealize.ShloMosaic.PureOps.Ideal
import Idealize.ShloMosaic.Lib.ValueIdx

noncomputable section

open scoped BigOperators

namespace Cert.SegLinear

open Idealize.ShloMosaic Idealize.ShloMosaic.ValueIdx

/-- The weight table, the input and the index vector, as shapes. -/
abbrev SW : Shape := ⟨2, ![64, 14336]⟩
abbrev SX : Shape := ⟨2, ![16384, 448]⟩
abbrev SI : Shape := ⟨1, ![16384]⟩
/-- The three result blocks over all rows. -/
abbrev SA : Shape := ⟨2, ![16384, 96]⟩
abbrev SB : Shape := ⟨2, ![16384, 192]⟩
abbrev SC : Shape := ⟨2, ![16384, 160]⟩

/-- The weight row an index word names: the word read as a natural number, held to the 64 rows. -/
def rowOf (w : BitVec 32) : Fin 64 := ⟨min w.toNat 63, by omega⟩

theorem rowOf_val {w : BitVec 32} (h : w.toNat < 64) : (rowOf w).val = w.toNat := by
  show min w.toNat 63 = w.toNat
  omega

/-- First block (96 × 96 matrix, 96 × 1 input block): column `q` of row `b`, for weight row `r`. -/
def segA (W : SW.Idx → EReal) (X : SX.Idx → EReal) (r : Fin 64) (b : Fin 16384) (q : Fin 96) : EReal :=
  ∑ i : Fin 96, W (ix2 r (⟨0 + i.val * 96 + q.val / 1, by have := i.isLt; have := q.isLt; omega⟩ : Fin 14336))
    * X (ix2 b (⟨0 + i.val * 1 + q.val % 1, by have := i.isLt; have := q.isLt; omega⟩ : Fin 448))

/-- Second block (64 × 64 matrix at column 9216, 64 × 3 input block at column 96). -/
def segB (W : SW.Idx → EReal) (X : SX.Idx → EReal) (r : Fin 64) (b : Fin 16384) (q : Fin 192) : EReal :=
  ∑ i : Fin 64, W (ix2 r (⟨9216 + i.val * 64 + q.val / 3, by have := i.isLt; have := q.isLt; omega⟩ : Fin 14336))
    * X (ix2 b (⟨96 + i.val * 3 + q.val % 3, by have := i.isLt; have := q.isLt; omega⟩ : Fin 448))

/-- Third block (32 × 32 matrix at column 13312, 32 × 5 input block at column 288). -/
def segC (W : SW.Idx → EReal) (X : SX.Idx → EReal) (r : Fin 64) (b : Fin 16384) (q : Fin 160) : EReal :=
  ∑ i : Fin 32, W (ix2 r (⟨13312 + i.val * 32 + q.val / 5, by have := i.isLt; have := q.isLt; omega⟩ : Fin 14336))
    * X (ix2 b (⟨288 + i.val * 5 + q.val % 5, by have := i.isLt; have := q.isLt; omega⟩ : Fin 448))

/-- The three result blocks over all rows, each row with the weight row its own index word names. -/
def blockA (W : SW.Idx → EReal) (X : SX.Idx → EReal) (idx : SI.Idx → BitVec 32) : SA.Idx → EReal :=
  fun j => segA W X (rowOf (idx (ix1 ⟨(j 0).val, (j 0).isLt⟩))) ⟨(j 0).val, (j 0).isLt⟩ ⟨(j 1).val, (j 1).isLt⟩
def blockB (W : SW.Idx → EReal) (X : SX.Idx → EReal) (idx : SI.Idx → BitVec 32) : SB.Idx → EReal :=
  fun j => segB W X (rowOf (idx (ix1 ⟨(j 0).val, (j 0).isLt⟩))) ⟨(j 0).val, (j 0).isLt⟩ ⟨(j 1).val, (j 1).isLt⟩
def blockC (W : SW.Idx → EReal) (X : SX.Idx → EReal) (idx : SI.Idx → BitVec 32) : SC.Idx → EReal :=
  fun j => segC W X (rowOf (idx (ix1 ⟨(j 0).val, (j 0).isLt⟩))) ⟨(j 0).val, (j 0).isLt⟩ ⟨(j 1).val, (j 1).isLt⟩

/-- Blocks of 96, 192 and 160 columns side by side fill the 448 columns. -/
theorem sideBySide : Shape.Concatenates [SA, SB, SC] SX 1 := by decide

/-- The result: the three blocks side by side. -/
def result (W : SW.Idx → EReal) (X : SX.Idx → EReal) (idx : SI.Idx → BitVec 32) : SX.Idx → EReal :=
  concatenate SX 1 [⟨SA, blockA W X idx⟩, ⟨SB, blockB W X idx⟩, ⟨SC, blockC W X idx⟩] sideBySide

end Cert.SegLinear

end
-- ==== Proof.LibGather3.lean ====
/-
  A gather of whole matrices out of a stack: the operand is a stack of E matrices of A × B entries, the start
  indices are a column of n words, and matrix number n of the result is the operand's matrix at the word, read
  signed and held to the stack.
-/
import Idealize.ShloMosaic.PureOps
import Idealize.ShloMosaic.Lib.ValueIdx
import Idealize.ShloMosaic.Lib.Pipeline.Value

noncomputable section

namespace Idealize.ShloMosaic.GatherRead3

open Idealize.ShloMosaic Idealize.ShloMosaic.ValueIdx

/-- The dimension numbers of a gather of whole matrices: operand `[E, A, B]`, start indices `[n, 1]` (one matrix
    number per result matrix), result `[n, A, B]`; the stack axis is collapsed and indexed, the row and the column
    axis are kept whole. -/
private abbrev matsDims (E A B n : Nat)
    (wf : GatherDims.WF ⟨3, ![E, A, B]⟩ ⟨2, ![n, 1]⟩ ⟨3, ![n, A, B]⟩ [1, 2] [0] [] [0] [] 1 ![1, A, B]) :
    GatherDims (⟨3, ![E, A, B]⟩ : Shape) ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Axis 1 is not axis 0. -/
private theorem one_not_mem_zero : (1 : Fin 3) ∉ ([0] : List (Fin 3)) := by decide

/-- Axis 2 is not axis 0. -/
private theorem two_not_mem_zero : (2 : Fin 3) ∉ ([0] : List (Fin 3)) := by decide

/-- The gather of whole matrices read at `(b, i, o)`, for the dimension numbers spelled out. -/
private theorem mats_apply {α : Type} {E A B n w : Nat} (hE : 0 < E)
    (wf : GatherDims.WF ⟨3, ![E, A, B]⟩ ⟨2, ![n, 1]⟩ ⟨3, ![n, A, B]⟩ [1, 2] [0] [] [0] [] 1 ![1, A, B])
    (x : (⟨3, ![E, A, B]⟩ : Shape).Idx → α) (idx : IVec ⟨2, ![n, 1]⟩ w) (b : Fin n) (i : Fin A) (o : Fin B) :
    Host.gather (matsDims E A B n wf) x idx (ix3 b i o)
      = x (ix3 ⟨min (idx (ix2 b 0)).toInt.toNat (E - 1), by omega⟩ i o) := by
  unfold Host.gather
  congr 1
  funext a
  refine Fin.ext ?_
  match a with
  | ⟨0, _⟩ =>
    -- the stack axis: the clamped start index; no batching coordinate, and no offset since the axis is collapsed
    show (matsDims E A B n wf).start (ix3 b i o) idx 0 + (matsDims E A B n wf).batchCoord (ix3 b i o) 0
      + (matsDims E A B n wf).offCoord (ix3 b i o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (matsDims E A B n wf).startIndexMap from List.mem_singleton.mpr rfl)]
    have hsi : (matsDims E A B n wf).siIdx (ix3 b i o) ⟨List.idxOf (0 : Fin 3) (matsDims E A B n wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    -- the row axis: not indexed (start 0), not batching, and the offset is the result's row
    show (matsDims E A B n wf).start (ix3 b i o) idx 1 + (matsDims E A B n wf).batchCoord (ix3 b i o) 1
      + (matsDims E A B n wf).offCoord (ix3 b i o) 1 = i.val
    rw [GatherDims.batchCoord_eq_zero _ _ _ List.not_mem_nil]
    have hs : (matsDims E A B n wf).start (ix3 b i o) idx 1 = 0 := by
      unfold GatherDims.start
      rw [dif_neg (show ¬ (1 : Fin 3) ∈ (matsDims E A B n wf).startIndexMap from one_not_mem_zero)]
    have hk : (1 : Fin 3) ∈ (matsDims E A B n wf).sKept :=
      (GatherDims.mem_sKept _ _).mpr ⟨one_not_mem_zero, List.not_mem_nil⟩
    rw [hs]
    simp only [Nat.add_zero, Nat.zero_add]
    unfold GatherDims.offCoord
    rw [dif_pos hk]
    rfl
  | ⟨2, _⟩ =>
    -- the column axis: not indexed (start 0), not batching, and the offset is the result's column
    show (matsDims E A B n wf).start (ix3 b i o) idx 2 + (matsDims E A B n wf).batchCoord (ix3 b i o) 2
      + (matsDims E A B n wf).offCoord (ix3 b i o) 2 = o.val
    rw [GatherDims.batchCoord_eq_zero _ _ _ List.not_mem_nil]
    have hs : (matsDims E A B n wf).start (ix3 b i o) idx 2 = 0 := by
      unfold GatherDims.start
      rw [dif_neg (show ¬ (2 : Fin 3) ∈ (matsDims E A B n wf).startIndexMap from two_not_mem_zero)]
    have hk : (2 : Fin 3) ∈ (matsDims E A B n wf).sKept :=
      (GatherDims.mem_sKept _ _).mpr ⟨two_not_mem_zero, List.not_mem_nil⟩
    rw [hs]
    simp only [Nat.add_zero, Nat.zero_add]
    unfold GatherDims.offCoord
    rw [dif_pos hk]
    rfl

/-- MATRICES OF A STACK. Entry `(b, i, o)` of the result is the operand at matrix `idx[b, 0]` — read signed and
    clamped into `[0, E − 1]` — row `i`, column `o`. -/
theorem gather_mats_apply {α : Type} {E A B n w : Nat} (hE : 0 < E)
    (d : GatherDims (⟨3, ![E, A, B]⟩ : Shape) ⟨2, ![n, 1]⟩ ⟨3, ![n, A, B]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, A, B])
    (x : (⟨3, ![E, A, B]⟩ : Shape).Idx → α) (idx : IVec ⟨2, ![n, 1]⟩ w) (b : Fin n) (i : Fin A) (o : Fin B) :
    Host.gather d x idx (ix3 b i o)
      = x (ix3 ⟨min (idx (ix2 b 0)).toInt.toNat (E - 1), by omega⟩ i o) := by
  obtain ⟨od, cd, ob, sb, sm, iv, ss, wf⟩ := d
  dsimp only at h1 h2 h3 h4 h5 h6 h7
  subst h1 h2 h3 h4 h5 h6 h7
  exact mats_apply hE wf x idx b i o

end Idealize.ShloMosaic.GatherRead3

end
-- ==== Proof.RefA.lean ====
/-
  The reference's first block, read at an index: the gathered 96 × 96 matrix of the row's own weight row contracted
  with the row's 96 × 1 input block.
-/
import proofs.«400696_j46497315947084_1_alg».proof.Proof.Gen.ReferenceIdeal.Read
import proofs.«400696_j46497315947084_1_alg».proof.Proof.Spec
import proofs.«400696_j46497315947084_1_alg».proof.Proof.LibGather3
import Idealize.ShloMosaic.Lib.ValueIdx
import Idealize.ShloMosaic.Lib.StableHlo.Predicate

noncomputable section

open scoped BigOperators

namespace Cert.SegLinear.Ref

open Idealize.ShloMosaic Idealize.ShloMosaic.ValueIdx Cert.ReferenceIdeal Cert.ReferenceIdeal.Gen Cert.ReferenceIdeal.Read Cert.SegLinear

/-- The start index of the gather at row `b`: an index word below 64 is not negative, so the wrap of negative
    words leaves it as it is. -/
theorem start_eq (idx : (⟨S16384, .i32⟩ : BufTy).Contents (Elt Ideal)) (hidx : ∀ b : Fin 16384, (idx (ix1 b)).toNat < 64)
    (b : Fin 16384) : val_main_v9 (F := Ideal) idx (ix2 b (0 : Fin 1)) = idx (ix1 b) := by
  rw [val_main_v9_apply]
  have hi : idx_main_v9 (ix2 b (0 : Fin 1)) = ix1 b := by
    funext a
    match a with
    | ⟨0, _⟩ => rfl
  rw [hi, val_main_v8_apply, val_main_v5_apply, val_main_v4_apply, val_main_c_apply]
  have hlt := hidx b
  have hc : IntOp.cmpi .slt (idx (ix1 b)) 0#32 = 0#1 := by
    refine eq_zero_of_ne_one fun h => ?_
    have h0 := (StableHlo.Predicate.slt_iff_toNat (a := idx (ix1 b)) (b := 0#32) (by omega) (by decide)).mp h
    exact Nat.not_lt_zero _ h0
  rw [hc, select_zero]

/-- The row the gather reads at `b`: the start index read signed and held to the 64 rows is the row the index word
    names. -/
theorem row_eq (idx : (⟨S16384, .i32⟩ : BufTy).Contents (Elt Ideal)) (hidx : ∀ b : Fin 16384, (idx (ix1 b)).toNat < 64)
    (b : Fin 16384) :
    min (val_main_v9 (F := Ideal) idx (ix2 b (0 : Fin 1))).toInt.toNat (64 - 1) = (rowOf (idx (ix1 b))).val := by
  have hlt := hidx b
  rw [start_eq idx hidx b, StableHlo.Predicate.toInt_eq_toNat_of_lt (by omega), Int.toNat_natCast, rowOf_val hlt]
  omega

/-- The gathered matrix at row `b`, entry `(k, q)`: the weight table at the row the index word names, column
    `k · 96 + q`. -/
theorem weight_read (W : (⟨S64x14336, .f32⟩ : BufTy).Contents (Elt Ideal)) (idx : (⟨S16384, .i32⟩ : BufTy).Contents (Elt Ideal))
    (hidx : ∀ b : Fin 16384, (idx (ix1 b)).toNat < 64) (b : Fin 16384) (k q : Fin 96) :
    val_main_v10 (F := Ideal) W idx (ix3 b k q)
      = W (ix2 (rowOf (idx (ix1 b))) (⟨0 + k.val * 96 + q.val / 1, by have := k.isLt; have := q.isLt; omega⟩ : Fin 14336)) := by
  unfold val_main_v10
  refine (GatherRead3.gather_mats_apply (by decide) gather_S64x96x96_S16384x1_S16384x96x96_12_0_n_n_0_1_19696
    rfl rfl rfl rfl rfl rfl rfl (val_main_v1 (F := Ideal) W) (val_main_v9 (F := Ideal) idx) b k q).trans ?_
  have hr : (⟨min (val_main_v9 (F := Ideal) idx (ix2 b (0 : Fin 1))).toInt.toNat (64 - 1),
      by have := row_eq idx hidx b; have := (rowOf (idx (ix1 b))).isLt; omega⟩ : Fin 64) = rowOf (idx (ix1 b)) :=
    Fin.ext (row_eq idx hidx b)
  rw [hr, val_main_v1_apply, val_main_v0_apply]
  refine congrArg W (funext fun a => Fin.ext ?_)
  have hρ := (rowOf (idx (ix1 b))).isLt
  have hk := k.isLt
  have hq := q.isLt
  match a with
  | ⟨0, _⟩ =>
    show (((rowOf (idx (ix1 b))).val * 96 + k.val) * 96 + q.val) / 9216 = (rowOf (idx (ix1 b))).val
    omega
  | ⟨1, _⟩ =>
    show (((rowOf (idx (ix1 b))).val * 96 + k.val) * 96 + q.val) % 9216 = 0 + k.val * 96 + q.val / 1
    omega

/-- The input block at row `b`, entry `(k, 0)`: the input at row `b`, column `k`. -/
theorem input_read (X : (⟨S16384x448, .f32⟩ : BufTy).Contents (Elt Ideal)) (b : Fin 16384) (k q : Fin 96) :
    val_main_v3 (F := Ideal) X (ix3 b k (0 : Fin 1))
      = X (ix2 b (⟨0 + k.val * 1 + q.val % 1, by have := k.isLt; have := q.isLt; omega⟩ : Fin 448)) := by
  rw [val_main_v3_apply, val_main_v2_apply]
  refine congrArg X (funext fun a => Fin.ext ?_)
  have hb := b.isLt
  have hk := k.isLt
  match a with
  | ⟨0, _⟩ =>
    show ((b.val * 96 + k.val) * 1 + 0) / 96 = b.val
    omega
  | ⟨1, _⟩ =>
    show ((b.val * 96 + k.val) * 1 + 0) % 96 = 0 + k.val * 1 + q.val % 1
    omega

/-- The reference's first result block is the function's, when every index word is below 64. -/
theorem refA (W : (⟨S64x14336, .f32⟩ : BufTy).Contents (Elt Ideal)) (X : (⟨S16384x448, .f32⟩ : BufTy).Contents (Elt Ideal))
    (idx : (⟨S16384, .i32⟩ : BufTy).Contents (Elt Ideal)) (hidx : ∀ b : Fin 16384, (idx (ix1 b)).toNat < 64) :
    val_main_v12 (F := Ideal) W X idx = blockA W X idx := by
  funext j
  obtain ⟨b, q, rfl⟩ : ∃ (b : Fin 16384) (q : Fin 96), j = ix2 b q := ⟨j 0, j 1, eq_ix2 j⟩
  have hb := b.isLt
  have hq := q.isLt
  rw [val_main_v12_apply, val_main_v11_apply]
  show _ = segA W X (rowOf (idx (ix1 b))) b q
  unfold segA
  refine Finset.sum_congr rfl fun k _ => ?_
  have hl : lidx_main_v11 (idx_main_v12 (ix2 b q)) k = ix3 b k q := by
    funext a
    refine Fin.ext ?_
    match a with
    | ⟨0, _⟩ =>
      show (b.val * 96 + q.val) / 96 = b.val
      omega
    | ⟨1, _⟩ => rfl
    | ⟨2, _⟩ =>
      show (b.val * 96 + q.val) / 1 % 96 = q.val
      omega
  have hr : ridx_main_v11 (idx_main_v12 (ix2 b q)) k = ix3 b k (0 : Fin 1) := by
    funext a
    refine Fin.ext ?_
    match a with
    | ⟨0, _⟩ =>
      show (b.val * 96 + q.val) / 96 = b.val
      omega
    | ⟨1, _⟩ => rfl
    | ⟨2, _⟩ => rfl
  rw [hl, hr, weight_read W idx hidx b k q, input_read X b k q]

end Cert.SegLinear.Ref

end
-- ==== Proof.RefB.lean ====
/-
  The reference's second block, read at an index: the gathered 64 × 64 matrix of the row's own weight row contracted
  with the row's 64 × 3 input block.
-/
import proofs.«400696_j46497315947084_1_alg».proof.Proof.Gen.ReferenceIdeal.Read
import proofs.«400696_j46497315947084_1_alg».proof.Proof.Spec
import proofs.«400696_j46497315947084_1_alg».proof.Proof.LibGather3
import Idealize.ShloMosaic.Lib.ValueIdx
import Idealize.ShloMosaic.Lib.StableHlo.Predicate

noncomputable section

open scoped BigOperators

namespace Cert.SegLinear.Ref

open Idealize.ShloMosaic Idealize.ShloMosaic.ValueIdx Cert.ReferenceIdeal Cert.ReferenceIdeal.Gen Cert.ReferenceIdeal.Read Cert.SegLinear

/-- The start index of the second gather at row `b` is the row's own index word: the word is below 64, so it is not
    negative, the comparison with zero fails and the select keeps the word itself. -/
private theorem startB (idx : (⟨S16384, .i32⟩ : BufTy).Contents (Elt Ideal))
    (hidx : ∀ b : Fin 16384, (idx (ix1 b)).toNat < 64) (b : Fin 16384) :
    val_main_v22 (F := Ideal) idx (ix2 b (0 : Fin 1)) = idx (ix1 b) := by
  have hw : (idx (ix1 b)).toNat < 64 := hidx b
  have hi : idx_main_v22 (ix2 b (0 : Fin 1)) = ix1 b := by
    funext a
    match a with
    | ⟨0, _⟩ => rfl
  rw [val_main_v22_apply, hi, val_main_v21_apply, val_main_v18_apply, val_main_v17_apply, val_main_c_1_apply]
  have hc : IntOp.cmpi .slt (idx (ix1 b)) 0#32 = 0#1 := by
    refine eq_zero_of_ne_one fun h => ?_
    have h0 := (StableHlo.Predicate.slt_iff_toNat (a := idx (ix1 b)) (b := 0#32) (by omega) (by decide)).mp h
    exact Nat.not_lt_zero _ h0
  rw [hc, select_zero]

/-- The row fact: the start index of the second gather at row `b`, read signed and held to the 64 matrices of the
    stack, is the weight row the row's index word names. -/
private theorem rowB (idx : (⟨S16384, .i32⟩ : BufTy).Contents (Elt Ideal))
    (hidx : ∀ b : Fin 16384, (idx (ix1 b)).toNat < 64) (b : Fin 16384)
    (h : min (val_main_v22 (F := Ideal) idx (ix2 b (0 : Fin 1))).toInt.toNat (64 - 1) < 64) :
    (⟨min (val_main_v22 (F := Ideal) idx (ix2 b (0 : Fin 1))).toInt.toNat (64 - 1), h⟩ : Fin 64) = rowOf (idx (ix1 b)) := by
  have hw : (idx (ix1 b)).toNat < 64 := hidx b
  refine Fin.ext ?_
  show min (val_main_v22 (F := Ideal) idx (ix2 b (0 : Fin 1))).toInt.toNat (64 - 1) = (rowOf (idx (ix1 b))).val
  rw [startB idx hidx b, rowOf_val hw, StableHlo.Predicate.toInt_eq_toNat_of_lt (by omega), Int.toNat_natCast]
  omega

/-- The weight factor: entry `(b, k, o)` of the gathered stack is the weight table at the row's own weight row and
    column `9216 + 64 k + o`. -/
private theorem weightB (W : (⟨S64x14336, .f32⟩ : BufTy).Contents (Elt Ideal))
    (idx : (⟨S16384, .i32⟩ : BufTy).Contents (Elt Ideal)) (hidx : ∀ b : Fin 16384, (idx (ix1 b)).toNat < 64)
    (b : Fin 16384) (k : Fin 64) (o : Fin 64) :
    val_main_v23 (F := Ideal) W idx (ix3 b k o)
      = W (ix2 (rowOf (idx (ix1 b))) (⟨9216 + k.val * 64 + o.val, by have := k.isLt; have := o.isLt; omega⟩ : Fin 14336)) := by
  unfold val_main_v23
  refine (GatherRead3.gather_mats_apply (E := 64) (A := 64) (B := 64) (n := 16384) (by decide)
    gather_S64x64x64_S16384x1_S16384x64x64_12_0_n_n_0_1_16464 rfl rfl rfl rfl rfl rfl rfl
    (val_main_v14 (F := Ideal) W) (val_main_v22 (F := Ideal) idx) b k o).trans ?_
  rw [rowB idx hidx b, val_main_v14_apply, val_main_v13_apply]
  have hr := (rowOf (idx (ix1 b))).isLt
  have hk := k.isLt
  have ho := o.isLt
  refine congrArg W (funext fun a => Fin.ext ?_)
  match a with
  | ⟨0, _⟩ =>
    show (((rowOf (idx (ix1 b))).val * 64 + k.val) * 64 + o.val) / 4096 = (rowOf (idx (ix1 b))).val
    omega
  | ⟨1, _⟩ =>
    show 9216 + (((rowOf (idx (ix1 b))).val * 64 + k.val) * 64 + o.val) % 4096 = 9216 + k.val * 64 + o.val
    omega

/-- The input factor: entry `(b, k, c)` of the reshaped input block is the input at row `b`, column `96 + 3 k + c`. -/
private theorem inputB (X : (⟨S16384x448, .f32⟩ : BufTy).Contents (Elt Ideal)) (b : Fin 16384) (k : Fin 64) (c : Fin 3) :
    val_main_v16 (F := Ideal) X (ix3 b k c)
      = X (ix2 b (⟨96 + k.val * 3 + c.val, by have := k.isLt; have := c.isLt; omega⟩ : Fin 448)) := by
  rw [val_main_v16_apply, val_main_v15_apply]
  have hb := b.isLt
  have hk := k.isLt
  have hc := c.isLt
  refine congrArg X (funext fun a => Fin.ext ?_)
  match a with
  | ⟨0, _⟩ =>
    show ((b.val * 64 + k.val) * 3 + c.val) / 192 = b.val
    omega
  | ⟨1, _⟩ =>
    show 96 + ((b.val * 64 + k.val) * 3 + c.val) % 192 = 96 + k.val * 3 + c.val
    omega

/-- The reference's second result block is the function's, when every index word is below 64. -/
theorem refB (W : (⟨S64x14336, .f32⟩ : BufTy).Contents (Elt Ideal)) (X : (⟨S16384x448, .f32⟩ : BufTy).Contents (Elt Ideal))
    (idx : (⟨S16384, .i32⟩ : BufTy).Contents (Elt Ideal)) (hidx : ∀ b : Fin 16384, (idx (ix1 b)).toNat < 64) :
    val_main_v25 (F := Ideal) W X idx = blockB W X idx := by
  funext j
  obtain ⟨b, q, rfl⟩ : ∃ (b : Fin 16384) (q : Fin 192), j = ix2 b q := ⟨j 0, j 1, eq_ix2 j⟩
  have hb := b.isLt
  have hq := q.isLt
  rw [val_main_v25_apply, val_main_v24_apply]
  show _ = segB W X (rowOf (idx (ix1 b))) b q
  unfold segB
  refine Finset.sum_congr rfl fun k _ => ?_
  have hk := k.isLt
  -- the two operands' indices, coordinate by coordinate
  have hl : lidx_main_v24 (idx_main_v25 (ix2 b q)) k = ix3 b k (⟨q.val / 3, by omega⟩ : Fin 64) := by
    funext a
    refine Fin.ext ?_
    match a with
    | ⟨0, _⟩ =>
      show (b.val * 192 + q.val) / 192 = b.val
      omega
    | ⟨1, _⟩ => rfl
    | ⟨2, _⟩ =>
      show (b.val * 192 + q.val) / 3 % 64 = q.val / 3
      omega
  have hr : ridx_main_v24 (idx_main_v25 (ix2 b q)) k = ix3 b k (⟨q.val % 3, by omega⟩ : Fin 3) := by
    funext a
    refine Fin.ext ?_
    match a with
    | ⟨0, _⟩ =>
      show (b.val * 192 + q.val) / 192 = b.val
      omega
    | ⟨1, _⟩ => rfl
    | ⟨2, _⟩ =>
      show (b.val * 192 + q.val) % 3 = q.val % 3
      omega
  rw [hl, hr, weightB W idx hidx b k _, inputB X b k _]

end Cert.SegLinear.Ref

end
-- ==== Proof.RefC.lean ====
/-
  The reference's third block, read at an index: the gathered 32 × 32 matrix of the row's own weight row contracted
  with the row's 32 × 5 input block.
-/
import proofs.«400696_j46497315947084_1_alg».proof.Proof.Gen.ReferenceIdeal.Read
import proofs.«400696_j46497315947084_1_alg».proof.Proof.Spec
import proofs.«400696_j46497315947084_1_alg».proof.Proof.LibGather3
import Idealize.ShloMosaic.Lib.ValueIdx
import Idealize.ShloMosaic.Lib.StableHlo.Predicate

noncomputable section

open scoped BigOperators

namespace Cert.SegLinear.Ref

open Idealize.ShloMosaic Idealize.ShloMosaic.ValueIdx Cert.ReferenceIdeal Cert.ReferenceIdeal.Gen Cert.ReferenceIdeal.Read Cert.SegLinear

/-- The gather's start index at row `b` is the row's own index word: a word below 64 is not negative, so the
    wrap of negative words (add 64 where the word is below zero) leaves it as it is. -/
private theorem startWordC (idx : (⟨S16384, .i32⟩ : BufTy).Contents (Elt Ideal)) (b : Fin 16384)
    (hb : (idx (ix1 b)).toNat < 64) :
    val_main_v35 (F := Ideal) idx (ix2 b (0 : Fin 1)) = idx (ix1 b) := by
  have e : idx_main_v35 (ix2 b (0 : Fin 1)) = ix1 b := by
    funext a
    match a with
    | ⟨0, _⟩ => rfl
  rw [val_main_v35_apply, e, val_main_v34_apply, val_main_v31_apply, val_main_v30_apply, val_main_c_3_apply]
  have hc : IntOp.cmpi .slt (idx (ix1 b)) 0#32 = 0#1 := by
    refine eq_zero_of_ne_one fun h => ?_
    have hlt := (StableHlo.Predicate.slt_iff_toNat (a := idx (ix1 b)) (b := 0#32) (by omega) (by decide)).mp h
    exact Nat.not_lt_zero _ hlt
  rw [hc, select_zero]

/-- The row the gather reads at `b`: its start index, read signed and held to the 64 rows, is the weight row the
    index word names. -/
private theorem startRowC (idx : (⟨S16384, .i32⟩ : BufTy).Contents (Elt Ideal)) (b : Fin 16384)
    (hb : (idx (ix1 b)).toNat < 64) :
    min (val_main_v35 (F := Ideal) idx (ix2 b (0 : Fin 1))).toInt.toNat (64 - 1) = (rowOf (idx (ix1 b))).val := by
  rw [startWordC idx b hb, StableHlo.Predicate.toInt_eq_toNat_of_lt (by omega), rowOf_val hb]
  omega

/-- The stack of 32 × 32 matrices at `(r, k, o)`: column `13312 + 32 k + o` of the table's row `r`. -/
private theorem stackAtC (W : (⟨S64x14336, .f32⟩ : BufTy).Contents (Elt Ideal)) (r : Fin 64) (k o : Fin 32) :
    val_main_v27 (F := Ideal) W (ix3 r k o)
      = W (ix2 r (⟨13312 + k.val * 32 + o.val, by have := k.isLt; have := o.isLt; omega⟩ : Fin 14336)) := by
  rw [val_main_v27_apply, val_main_v26_apply]
  have hr := r.isLt
  have hk := k.isLt
  have ho := o.isLt
  refine congrArg W (funext fun a => Fin.ext ?_)
  match a with
  | ⟨0, _⟩ =>
    show ((r.val * 32 + k.val) * 32 + o.val) / 1024 = r.val
    omega
  | ⟨1, _⟩ =>
    show 13312 + ((r.val * 32 + k.val) * 32 + o.val) % 1024 = 13312 + k.val * 32 + o.val
    omega

/-- The gathered matrices at `(b, k, o)`: the entry of the weight row that `b`'s index word names. -/
private theorem gatheredAtC (W : (⟨S64x14336, .f32⟩ : BufTy).Contents (Elt Ideal))
    (idx : (⟨S16384, .i32⟩ : BufTy).Contents (Elt Ideal)) (b : Fin 16384) (hb : (idx (ix1 b)).toNat < 64)
    (k o : Fin 32) :
    val_main_v36 (F := Ideal) W idx (ix3 b k o)
      = W (ix2 (rowOf (idx (ix1 b)))
          (⟨13312 + k.val * 32 + o.val, by have := k.isLt; have := o.isLt; omega⟩ : Fin 14336)) := by
  unfold val_main_v36
  refine (GatherRead3.gather_mats_apply (E := 64) (A := 32) (B := 32) (n := 16384) (by decide)
    gather_S64x32x32_S16384x1_S16384x32x32_12_0_n_n_0_1_13232 rfl rfl rfl rfl rfl rfl rfl
    (val_main_v27 (F := Ideal) W) (val_main_v35 (F := Ideal) idx) b k o).trans ?_
  have hrow : (⟨min (val_main_v35 (F := Ideal) idx (ix2 b (0 : Fin 1))).toInt.toNat (64 - 1), by omega⟩ : Fin 64)
      = rowOf (idx (ix1 b)) := Fin.ext (startRowC idx b hb)
  exact (congrArg (fun r : Fin 64 => val_main_v27 (F := Ideal) W (ix3 r k o)) hrow).trans (stackAtC W _ k o)

/-- The input's third block at `(b, k, c)`: column `288 + 5 k + c` of the input's row `b`. -/
private theorem blockAtC (X : (⟨S16384x448, .f32⟩ : BufTy).Contents (Elt Ideal)) (b : Fin 16384) (k : Fin 32) (c : Fin 5) :
    val_main_v29 (F := Ideal) X (ix3 b k c)
      = X (ix2 b (⟨288 + k.val * 5 + c.val, by have := k.isLt; have := c.isLt; omega⟩ : Fin 448)) := by
  rw [val_main_v29_apply, val_main_v28_apply]
  have hb := b.isLt
  have hk := k.isLt
  have hc := c.isLt
  refine congrArg X (funext fun a => Fin.ext ?_)
  match a with
  | ⟨0, _⟩ =>
    show ((b.val * 32 + k.val) * 5 + c.val) / 160 = b.val
    omega
  | ⟨1, _⟩ =>
    show 288 + ((b.val * 32 + k.val) * 5 + c.val) % 160 = 288 + k.val * 5 + c.val
    omega

/-- The reference's third result block is the function's, when every index word is below 64. -/
theorem refC (W : (⟨S64x14336, .f32⟩ : BufTy).Contents (Elt Ideal)) (X : (⟨S16384x448, .f32⟩ : BufTy).Contents (Elt Ideal))
    (idx : (⟨S16384, .i32⟩ : BufTy).Contents (Elt Ideal)) (hidx : ∀ b : Fin 16384, (idx (ix1 b)).toNat < 64) :
    val_main_v38 (F := Ideal) W X idx = blockC W X idx := by
  funext j
  obtain ⟨b, q, rfl⟩ : ∃ (b : Fin 16384) (q : Fin 160), j = ix2 b q := ⟨j 0, j 1, eq_ix2 j⟩
  have hb := b.isLt
  have hq := q.isLt
  rw [val_main_v38_apply, val_main_v37_apply]
  show _ = segC W X (rowOf (idx (ix1 b))) b q
  unfold segC
  refine Finset.sum_congr rfl fun k _ => ?_
  have hk := k.isLt
  -- the two operands' indices: result column q is output column q / 5 of the matrix and column q % 5 of the block
  have el : lidx_main_v37 (idx_main_v38 (ix2 b q)) k
      = ix3 b k (⟨q.val / 5, by omega⟩ : Fin 32) := funext fun a => Fin.ext (by
    match a with
    | ⟨0, _⟩ =>
      show (b.val * 160 + q.val) / 160 = b.val
      omega
    | ⟨1, _⟩ => rfl
    | ⟨2, _⟩ =>
      show (b.val * 160 + q.val) / 5 % 32 = q.val / 5
      omega)
  have er : ridx_main_v37 (idx_main_v38 (ix2 b q)) k
      = ix3 b k (⟨q.val % 5, by omega⟩ : Fin 5) := funext fun a => Fin.ext (by
    match a with
    | ⟨0, _⟩ =>
      show (b.val * 160 + q.val) / 160 = b.val
      omega
    | ⟨1, _⟩ => rfl
    | ⟨2, _⟩ =>
      show (b.val * 160 + q.val) % 5 = q.val % 5
      omega)
  rw [el, er, gatheredAtC W idx b (hidx b) k _, blockAtC X b k _]

end Cert.SegLinear.Ref

end
-- ==== Proof.Ref.lean ====
/-
  The reference's result is the function: its three blocks are the function's three blocks, joined the same way.
-/
import proofs.«400696_j46497315947084_1_alg».proof.Proof.RefA
import proofs.«400696_j46497315947084_1_alg».proof.Proof.RefB
import proofs.«400696_j46497315947084_1_alg».proof.Proof.RefC

noncomputable section

namespace Cert.SegLinear.Ref

open Idealize.ShloMosaic Idealize.ShloMosaic.ValueIdx Cert.ReferenceIdeal Cert.ReferenceIdeal.Gen Cert.ReferenceIdeal.Read Cert.SegLinear

/-- The reference's result array is `result` of its arguments, when every index word is below 64. -/
theorem ref_result (W : (⟨S64x14336, .f32⟩ : BufTy).Contents (Elt Ideal)) (X : (⟨S16384x448, .f32⟩ : BufTy).Contents (Elt Ideal))
    (idx : (⟨S16384, .i32⟩ : BufTy).Contents (Elt Ideal)) (hidx : ∀ b : Fin 16384, (idx (ix1 b)).toNat < 64) :
    val_main_v39 (F := Ideal) W X idx = result W X idx := by
  unfold val_main_v39 result
  rw [refA W X idx hidx, refB W X idx hidx, refC W X idx hidx]

end Cert.SegLinear.Ref

end
-- ==== Proof.KerOneHot.lean ====
/-
  The one-hot rows the kernel selects weight rows with. Row p of the 256 × 64 selector holds 1 where the column
  number is row p's index word and 0 elsewhere, so a product of the selector with a 64-row table picks, for each
  row p, the table's row at p's index word: a sum with at most one non-zero term.
-/
import proofs.«400696_j46497315947084_1_alg».proof.Proof.Gen.KernelIdeal.Skeleton
import proofs.«400696_j46497315947084_1_alg».proof.Proof.Spec
import Idealize.ShloMosaic.Lib.ValueIdx
import Idealize.ShloMosaic.Lib.Pipeline.Value
import Idealize.ShloMosaic.Lib.StableHlo.Predicate

noncomputable section

open scoped BigOperators

namespace Cert.SegLinear.Ker

open Idealize.ShloMosaic Idealize.ShloMosaic.ValueIdx Cert.KernelIdeal Cert.KernelIdeal.Gen Cert.SegLinear

variable {F : FTy → Type} [FloatOps F]

/-- The selector: the block's index column compared with the column numbers 0 … 63, the truth values as floats. -/
def oneHot (v0 : Vec F S256x1 .i32) : FVec F S256x64 .bf16 :=
  truncf .bf16 (sitofp .f32 (extui 32 (cmpi .eq
    (broadcastTo S256x64 (shapeCast S256x1 v0 shapeCasts_S256x1_S256x1) broadcasts_S256x1_S256x64)
    (iota .tc S256x64 32 [1] iota_S256x64_d1_w32)) natLt_1_32)) bitsLt_bf16_f32

/-- Entry (p, e) of the selector is 1 when row p's index word is e, else 0. -/
theorem oneHot_apply (v0 : Vec Ideal S256x1 .i32) (p : Fin 256) (e : Fin 64) :
    oneHot (F := Ideal) v0 (ix2 p e) = if v0 (ix2 p 0) = BitVec.ofNat 32 e.val then (1 : EReal) else 0 := by
  unfold oneHot
  rw [truncf_apply, sitofp_apply, extui_apply]
  show FloatOps.sitofp (F := Ideal) .f32 ((IntOp.cmpi .eq
      (broadcastTo S256x64 (shapeCast S256x1 v0 shapeCasts_S256x1_S256x1) broadcasts_S256x1_S256x64 (ix2 p e))
      (iota .tc S256x64 32 [1] iota_S256x64_d1_w32 (ix2 p e))).setWidth 32) = _
  rw [broadcastTo_apply _ broadcasts_S256x1_S256x64 (ix2 p e) (ix2 p 0) (fun a => match a with
      | ⟨0, _⟩ => by show p.val = if (256 : Nat) = 1 then 0 else p.val; rw [if_neg (by decide)]
      | ⟨1, _⟩ => rfl),
    shapeCast_self]
  have hi : iota .tc S256x64 32 [1] iota_S256x64_d1_w32 (ix2 p e) = BitVec.ofNat 32 e.val := by
    show BitVec.ofNat 32 (0 * 64 + e.val) = _
    rw [Nat.zero_mul, Nat.zero_add]
  rw [hi]
  by_cases h : v0 (ix2 p 0) = BitVec.ofNat 32 e.val
  · rw [if_pos h, h, StableHlo.Predicate.cmpi_eq_iff.mpr rfl]
    show (((BitVec.setWidth 32 1#1).toInt : ℝ) : EReal) = 1
    rw [show (BitVec.setWidth 32 1#1).toInt = 1 by decide]
    simp
  · rw [if_neg h, eq_zero_of_ne_one fun h1 => h (StableHlo.Predicate.cmpi_eq_iff.mp h1)]
    show (((BitVec.setWidth 32 0#1).toInt : ℝ) : EReal) = 0
    rw [show (BitVec.setWidth 32 0#1).toInt = 0 by decide]
    simp

/-- A sum over the 64 column numbers against the selector's row keeps the one term at the index word. -/
theorem sum_oneHot (w : BitVec 32) (hw : w.toNat < 64) (f : Fin 64 → EReal) :
    (∑ e : Fin 64, (if w = BitVec.ofNat 32 e.val then (1 : EReal) else 0) * f e) = f (rowOf w) := by
  have hrow : w = BitVec.ofNat 32 (rowOf w).val := by
    rw [rowOf_val hw, BitVec.ofNat_toNat, BitVec.setWidth_eq]
  rw [Finset.sum_eq_single (rowOf w)]
  · rw [if_pos hrow, one_mul]
  · intro e _ hne
    have hwe : ¬ w = BitVec.ofNat 32 e.val := by
      intro he
      apply hne
      apply Fin.ext
      rw [rowOf_val hw, he, BitVec.toNat_ofNat]
      have := e.isLt
      omega
    rw [if_neg hwe, zero_mul]
  · intro hnot
    exact absurd (Finset.mem_univ _) hnot

end Cert.SegLinear.Ker

end
-- ==== Proof.KerA.lean ====
/-
  The kernel's first result block on one tile of 256 rows, read at an index.

  The selector times the leading 64 × 9216 slice of the weight table gathers, for each row p of the tile, the
  96 × 96 matrix of the weight row that p's index word names (laid flat as 9216 columns). The row's input block is
  a single column of 96 entries, the leading 96 columns of the row, so contracting the matrix over its first axis
  with that column gives a 96 × 1 result block, laid flat as 96 columns:
  column q of row p is Σ_i W[row, 96 i + q] · X[p, i]. The block's second axis has the one index 0, which is why
  the quotient q / 1 and the remainder q % 1 below are q and 0.
-/
import proofs.«400696_j46497315947084_1_alg».proof.Proof.KerOneHot
import Idealize.ShloMosaic.PureOps.Ideal.Laws

noncomputable section

open scoped BigOperators

namespace Cert.SegLinear.Ker

open Idealize.ShloMosaic Idealize.ShloMosaic.ValueIdx Cert.KernelIdeal Cert.KernelIdeal.Gen Cert.SegLinear

variable {F : FTy → Type} [FloatOps F]

/-- The first block as the kernel computes it from the tile's index column, the tile's input rows and the whole
    weight table. -/
def pieceA (v0 : Vec F S256x1 .i32) (v8 : Vec F S256x448 .f32) (v10 : Vec F S64x14336 .f32) : FVec F S256x96 .f32 :=
  shapeCast S256x96
    (matmul dot_S256x96x96_S256x96x1_S256x96x1_1_1_2_2_0_0 none
      (truncf .bf16 (shapeCast S256x96x96
        (matmul dot_S256x64_S64x9216_S256x9216_1_0_0_1_n_n none (oneHot v0)
          (extractStridedSlice S64x9216 ![0, 0] (truncf .bf16 v10 bitsLt_bf16_f32) slices_S64x14336_o0_0_S64x9216)
          (constant S256x9216 .f32 0x00000000#32))
        shapeCasts_S256x9216_S256x96x96) bitsLt_bf16_f32)
      (shapeCast S256x96x1
        (extractStridedSlice S256x96 ![0, 0] (truncf .bf16 v8 bitsLt_bf16_f32) slices_S256x448_o0_0_S256x96)
        shapeCasts_S256x96_S256x96x1)
      (constant S256x96x1 .f32 0x00000000#32))
    shapeCasts_S256x96x1_S256x96

/-! ## The selector product: rows times columns, summed over the 64 table rows -/

theorem selA_l0 (j : S256x9216.Idx) (q : dot_S256x64_S64x9216_S256x9216_1_0_0_1_n_n.contr.Idx) :
    (dot_S256x64_S64x9216_S256x9216_1_0_0_1_n_n.lhsIdx j q 0).val = (j 0).val := by
  unfold DotDims.lhsIdx
  rw [dif_neg (show ¬(0 : Fin S256x64.rank) ∈ dot_S256x64_S64x9216_S256x9216_1_0_0_1_n_n.lhsBatch by decide), dif_pos (show (0 : Fin S256x64.rank) ∈ dot_S256x64_S64x9216_S256x9216_1_0_0_1_n_n.lhsNonContracting by decide)]
  rfl
theorem selA_l1 (j : S256x9216.Idx) (q : dot_S256x64_S64x9216_S256x9216_1_0_0_1_n_n.contr.Idx) :
    (dot_S256x64_S64x9216_S256x9216_1_0_0_1_n_n.lhsIdx j q 1).val = (q ⟨0, by decide⟩).val :=
  dot_S256x64_S64x9216_S256x9216_1_0_0_1_n_n.lhsIdx_val_of_single rfl j q
theorem selA_r0 (j : S256x9216.Idx) (q : dot_S256x64_S64x9216_S256x9216_1_0_0_1_n_n.contr.Idx) :
    (dot_S256x64_S64x9216_S256x9216_1_0_0_1_n_n.rhsIdx j q 0).val = (q ⟨0, by decide⟩).val :=
  dot_S256x64_S64x9216_S256x9216_1_0_0_1_n_n.rhsIdx_val_of_single rfl j q
theorem selA_r1 (j : S256x9216.Idx) (q : dot_S256x64_S64x9216_S256x9216_1_0_0_1_n_n.contr.Idx) :
    (dot_S256x64_S64x9216_S256x9216_1_0_0_1_n_n.rhsIdx j q 1).val = (j 1).val := by
  unfold DotDims.rhsIdx
  rw [dif_neg (show ¬(1 : Fin S64x9216.rank) ∈ dot_S256x64_S64x9216_S256x9216_1_0_0_1_n_n.rhsBatch by decide), dif_pos (show (1 : Fin S64x9216.rank) ∈ dot_S256x64_S64x9216_S256x9216_1_0_0_1_n_n.rhsNonContracting by decide)]
  rfl

/-- Entry (p, c) of the selector product is the sum over the table rows e of selector (p, e) times table (e, c). -/
theorem selA_apply {φ₁ φ₂ : FTy} (lhs : FVec Ideal S256x64 φ₁) (rhs : FVec Ideal S64x9216 φ₂) (p : Fin 256) (c : Fin 9216) :
    matmul dot_S256x64_S64x9216_S256x9216_1_0_0_1_n_n none lhs rhs (constant S256x9216 .f32 0x00000000#32) (ix2 p c)
      = ∑ e : Fin 64, lhs (ix2 p e) * rhs (ix2 e c) := by
  refine (Ideal.matmul_constant_zero_apply dot_S256x64_S64x9216_S256x9216_1_0_0_1_n_n none lhs rhs (ix2 p c)).trans ?_
  rw [← Equiv.sum_comp (contrEquiv1 dot_S256x64_S64x9216_S256x9216_1_0_0_1_n_n 64 rfl rfl).symm]
  refine Finset.sum_congr rfl fun k _ => ?_
  have hk := contrEquiv1_symm_val dot_S256x64_S64x9216_S256x9216_1_0_0_1_n_n 64 rfl rfl k
  have el : dot_S256x64_S64x9216_S256x9216_1_0_0_1_n_n.lhsIdx (ix2 p c) ((contrEquiv1 dot_S256x64_S64x9216_S256x9216_1_0_0_1_n_n 64 rfl rfl).symm k) = ix2 p k := funext fun a => Fin.ext (by
    match a with
    | ⟨0, _⟩ => exact selA_l0 _ _
    | ⟨1, _⟩ => exact (selA_l1 _ _).trans hk)
  have er : dot_S256x64_S64x9216_S256x9216_1_0_0_1_n_n.rhsIdx (ix2 p c) ((contrEquiv1 dot_S256x64_S64x9216_S256x9216_1_0_0_1_n_n 64 rfl rfl).symm k) = ix2 k c := funext fun a => Fin.ext (by
    match a with
    | ⟨0, _⟩ => exact (selA_r0 _ _).trans hk
    | ⟨1, _⟩ => exact selA_r1 _ _)
  rw [el, er]

/-! ## The contraction of a row's matrix with its input column -/

theorem conA_l0 (j : S256x96x1.Idx) (q : dot_S256x96x96_S256x96x1_S256x96x1_1_1_2_2_0_0.contr.Idx) :
    (dot_S256x96x96_S256x96x1_S256x96x1_1_1_2_2_0_0.lhsIdx j q 0).val = (j 0).val := by
  unfold DotDims.lhsIdx
  rw [dif_pos (show (0 : Fin S256x96x96.rank) ∈ dot_S256x96x96_S256x96x1_S256x96x1_1_1_2_2_0_0.lhsBatch by decide)]
  rfl
theorem conA_l1 (j : S256x96x1.Idx) (q : dot_S256x96x96_S256x96x1_S256x96x1_1_1_2_2_0_0.contr.Idx) :
    (dot_S256x96x96_S256x96x1_S256x96x1_1_1_2_2_0_0.lhsIdx j q 1).val = (q ⟨0, by decide⟩).val :=
  dot_S256x96x96_S256x96x1_S256x96x1_1_1_2_2_0_0.lhsIdx_val_of_single rfl j q
theorem conA_l2 (j : S256x96x1.Idx) (q : dot_S256x96x96_S256x96x1_S256x96x1_1_1_2_2_0_0.contr.Idx) :
    (dot_S256x96x96_S256x96x1_S256x96x1_1_1_2_2_0_0.lhsIdx j q 2).val = (j 1).val := by
  unfold DotDims.lhsIdx
  rw [dif_neg (show ¬(2 : Fin S256x96x96.rank) ∈ dot_S256x96x96_S256x96x1_S256x96x1_1_1_2_2_0_0.lhsBatch by decide), dif_pos (show (2 : Fin S256x96x96.rank) ∈ dot_S256x96x96_S256x96x1_S256x96x1_1_1_2_2_0_0.lhsNonContracting by decide)]
  rfl
theorem conA_r0 (j : S256x96x1.Idx) (q : dot_S256x96x96_S256x96x1_S256x96x1_1_1_2_2_0_0.contr.Idx) :
    (dot_S256x96x96_S256x96x1_S256x96x1_1_1_2_2_0_0.rhsIdx j q 0).val = (j 0).val := by
  unfold DotDims.rhsIdx
  rw [dif_pos (show (0 : Fin S256x96x1.rank) ∈ dot_S256x96x96_S256x96x1_S256x96x1_1_1_2_2_0_0.rhsBatch by decide)]
  rfl
theorem conA_r1 (j : S256x96x1.Idx) (q : dot_S256x96x96_S256x96x1_S256x96x1_1_1_2_2_0_0.contr.Idx) :
    (dot_S256x96x96_S256x96x1_S256x96x1_1_1_2_2_0_0.rhsIdx j q 1).val = (q ⟨0, by decide⟩).val :=
  dot_S256x96x96_S256x96x1_S256x96x1_1_1_2_2_0_0.rhsIdx_val_of_single rfl j q
theorem conA_r2 (j : S256x96x1.Idx) (q : dot_S256x96x96_S256x96x1_S256x96x1_1_1_2_2_0_0.contr.Idx) :
    (dot_S256x96x96_S256x96x1_S256x96x1_1_1_2_2_0_0.rhsIdx j q 2).val = (j 2).val := by
  unfold DotDims.rhsIdx
  rw [dif_neg (show ¬(2 : Fin S256x96x1.rank) ∈ dot_S256x96x96_S256x96x1_S256x96x1_1_1_2_2_0_0.rhsBatch by decide), dif_pos (show (2 : Fin S256x96x1.rank) ∈ dot_S256x96x96_S256x96x1_S256x96x1_1_1_2_2_0_0.rhsNonContracting by decide)]
  rfl

/-- Entry (p, o, c) of the contraction is the sum over i of matrix (p, i, o) times input block (p, i, c). -/
theorem conA_apply {φ₁ φ₂ : FTy} (lhs : FVec Ideal S256x96x96 φ₁) (rhs : FVec Ideal S256x96x1 φ₂) (p : Fin 256) (o : Fin 96) (c : Fin 1) :
    matmul dot_S256x96x96_S256x96x1_S256x96x1_1_1_2_2_0_0 none lhs rhs (constant S256x96x1 .f32 0x00000000#32) (ix3 p o c)
      = ∑ i : Fin 96, lhs (ix3 p i o) * rhs (ix3 p i c) := by
  refine (Ideal.matmul_constant_zero_apply dot_S256x96x96_S256x96x1_S256x96x1_1_1_2_2_0_0 none lhs rhs (ix3 p o c)).trans ?_
  rw [← Equiv.sum_comp (contrEquiv1 dot_S256x96x96_S256x96x1_S256x96x1_1_1_2_2_0_0 96 rfl rfl).symm]
  refine Finset.sum_congr rfl fun k _ => ?_
  have hk := contrEquiv1_symm_val dot_S256x96x96_S256x96x1_S256x96x1_1_1_2_2_0_0 96 rfl rfl k
  have el : dot_S256x96x96_S256x96x1_S256x96x1_1_1_2_2_0_0.lhsIdx (ix3 p o c) ((contrEquiv1 dot_S256x96x96_S256x96x1_S256x96x1_1_1_2_2_0_0 96 rfl rfl).symm k) = ix3 p k o := funext fun a => Fin.ext (by
    match a with
    | ⟨0, _⟩ => exact conA_l0 _ _
    | ⟨1, _⟩ => exact (conA_l1 _ _).trans hk
    | ⟨2, _⟩ => exact conA_l2 _ _)
  have er : dot_S256x96x96_S256x96x1_S256x96x1_1_1_2_2_0_0.rhsIdx (ix3 p o c) ((contrEquiv1 dot_S256x96x96_S256x96x1_S256x96x1_1_1_2_2_0_0 96 rfl rfl).symm k) = ix3 p k c := funext fun a => Fin.ext (by
    match a with
    | ⟨0, _⟩ => exact conA_r0 _ _
    | ⟨1, _⟩ => exact (conA_r1 _ _).trans hk
    | ⟨2, _⟩ => exact conA_r2 _ _)
  rw [el, er]

/-! ## The block at an index -/

/-- Row p of the gathered table: the weight row p's index word names, at the slice's column c. The slice starts at
    column 0 of the table, so the table column is 0 + c. -/
theorem gatheredA_apply (v0 : IVec S256x1 32) (v10 : FVec Ideal S64x14336 .f32) (p : Fin 256) (c : Fin 9216)
    (hw : (v0 (ix2 p 0)).toNat < 64) :
    matmul dot_S256x64_S64x9216_S256x9216_1_0_0_1_n_n none (oneHot (F := Ideal) v0)
        (extractStridedSlice S64x9216 ![0, 0] (truncf .bf16 v10 bitsLt_bf16_f32) slices_S64x14336_o0_0_S64x9216)
        (constant S256x9216 .f32 0x00000000#32) (ix2 p c)
      = v10 (ix2 (rowOf (v0 (ix2 p 0))) (⟨0 + c.val, by have := c.isLt; omega⟩ : Fin 14336)) := by
  rw [selA_apply]
  simp only [oneHot_apply]
  rw [sum_oneHot _ hw]
  exact extractStridedSlice_apply ![0, 0] (truncf .bf16 v10 bitsLt_bf16_f32) slices_S64x14336_o0_0_S64x9216
    (ix2 (rowOf (v0 (ix2 p 0))) c) (ix2 (rowOf (v0 (ix2 p 0))) (⟨0 + c.val, by have := c.isLt; omega⟩ : Fin 14336))
    (fun a => match a with
      | ⟨0, _⟩ => by show (rowOf (v0 (ix2 p 0))).val = 0 + (rowOf (v0 (ix2 p 0))).val; omega
      | ⟨1, _⟩ => rfl)

/-- Column q of row p of the first block: the contraction of the row's own 96 × 96 weight matrix with its 96 × 1
    input block, at matrix column q / 1 and input column q % 1. -/
theorem pieceA_apply (v0 : IVec S256x1 32) (v8 : FVec Ideal S256x448 .f32) (v10 : FVec Ideal S64x14336 .f32)
    (p : Fin 256) (q : Fin 96) (hw : (v0 (ix2 p 0)).toNat < 64) :
    pieceA (F := Ideal) v0 v8 v10 (ix2 p q)
      = ∑ i : Fin 96, v10 (ix2 (rowOf (v0 (ix2 p 0))) (⟨0 + i.val * 96 + q.val / 1, by have := i.isLt; have := q.isLt; omega⟩ : Fin 14336))
          * v8 (ix2 p (⟨0 + i.val * 1 + q.val % 1, by have := i.isLt; have := q.isLt; omega⟩ : Fin 448)) := by
  have hq := q.isLt
  unfold pieceA
  refine (shapeCast_apply _ shapeCasts_S256x96x1_S256x96 (ix2 p q)
    (ix3 p (⟨q.val / 1, by omega⟩ : Fin 96) (⟨q.val % 1, by omega⟩ : Fin 1)) (by
      rewrite [Shape.rowMajor_val_three, Shape.rowMajor_val_two]
      show (p.val * 96 + q.val / 1) * 1 + q.val % 1 = p.val * 96 + q.val
      omega)).trans ?_
  rw [conA_apply]
  refine Finset.sum_congr rfl fun i _ => ?_
  have hi := i.isLt
  congr 1
  · -- the matrix entry (i, q / 1) of row p is entry 96 i + q / 1 of the gathered flat row
    rw [truncf_apply]
    refine (shapeCast_apply _ shapeCasts_S256x9216_S256x96x96 (ix3 p i (⟨q.val / 1, by omega⟩ : Fin 96))
      (ix2 p (⟨i.val * 96 + q.val / 1, by omega⟩ : Fin 9216)) (by
        rewrite [Shape.rowMajor_val_two, Shape.rowMajor_val_three]
        show p.val * 9216 + (i.val * 96 + q.val / 1) = (p.val * 96 + i.val) * 96 + q.val / 1
        omega)).trans ?_
    rw [gatheredA_apply v0 v10 p _ hw]
    exact congrArg v10 (funext fun a => match a with
      | ⟨0, _⟩ => rfl
      | ⟨1, _⟩ => Fin.ext (by show 0 + (i.val * 96 + q.val / 1) = 0 + i.val * 96 + q.val / 1; omega))
  · -- the input block entry (i, q % 1) of row p is column i + q % 1 of the row's leading 96 columns
    refine (shapeCast_apply _ shapeCasts_S256x96_S256x96x1 (ix3 p i (⟨q.val % 1, by omega⟩ : Fin 1))
      (ix2 p (⟨i.val * 1 + q.val % 1, by omega⟩ : Fin 96)) (by
        rewrite [Shape.rowMajor_val_two, Shape.rowMajor_val_three]
        show p.val * 96 + (i.val * 1 + q.val % 1) = (p.val * 96 + i.val) * 1 + q.val % 1
        omega)).trans ?_
    exact extractStridedSlice_apply ![0, 0] (truncf .bf16 v8 bitsLt_bf16_f32) slices_S256x448_o0_0_S256x96
      (ix2 p (⟨i.val * 1 + q.val % 1, by omega⟩ : Fin 96)) (ix2 p (⟨0 + i.val * 1 + q.val % 1, by omega⟩ : Fin 448))
      (fun a => match a with
        | ⟨0, _⟩ => by show p.val = 0 + p.val; omega
        | ⟨1, _⟩ => by show 0 + i.val * 1 + q.val % 1 = 0 + (i.val * 1 + q.val % 1); omega)

end Cert.SegLinear.Ker

end
-- ==== Proof.KerB.lean ====
/-
  The kernel's second result block on one tile of 256 rows, read at an index.

  The selector times the 64 × 4096 slice of the weight table gathers, for each row p of the tile, the 64 × 64
  matrix of the weight row p's index word names (laid flat); that matrix contracted over its first axis with the
  row's 64 × 3 input block gives the row's 64 × 3 result block, laid flat as 192 columns:
  column q of row p is Σ_i W[row, 9216 + 64 i + q / 3] · X[p, 96 + 3 i + q % 3].
-/
import proofs.«400696_j46497315947084_1_alg».proof.Proof.KerOneHot
import Idealize.ShloMosaic.PureOps.Ideal.Laws

noncomputable section

open scoped BigOperators

namespace Cert.SegLinear.Ker

open Idealize.ShloMosaic Idealize.ShloMosaic.ValueIdx Cert.KernelIdeal Cert.KernelIdeal.Gen Cert.SegLinear

variable {F : FTy → Type} [FloatOps F]

/-- The second block as the kernel computes it from the tile's index column, the tile's input rows and the whole
    weight table. -/
def pieceB (v0 : Vec F S256x1 .i32) (v8 : Vec F S256x448 .f32) (v10 : Vec F S64x14336 .f32) : FVec F S256x192 .f32 :=
  shapeCast S256x192
    (matmul dot_S256x64x64_S256x64x3_S256x64x3_1_1_2_2_0_0 none
      (truncf .bf16 (shapeCast S256x64x64
        (matmul dot_S256x64_S64x4096_S256x4096_1_0_0_1_n_n none (oneHot v0)
          (extractStridedSlice S64x4096 ![0, 9216] (truncf .bf16 v10 bitsLt_bf16_f32) slices_S64x14336_o0_9216_S64x4096)
          (constant S256x4096 .f32 0x00000000#32))
        shapeCasts_S256x4096_S256x64x64) bitsLt_bf16_f32)
      (shapeCast S256x64x3
        (extractStridedSlice S256x192 ![0, 96] (truncf .bf16 v8 bitsLt_bf16_f32) slices_S256x448_o0_96_S256x192)
        shapeCasts_S256x192_S256x64x3)
      (constant S256x64x3 .f32 0x00000000#32))
    shapeCasts_S256x64x3_S256x192

/-! ## The selector product: rows times columns, summed over the 64 table rows -/

theorem selB_l0 (j : S256x4096.Idx) (q : dot_S256x64_S64x4096_S256x4096_1_0_0_1_n_n.contr.Idx) :
    (dot_S256x64_S64x4096_S256x4096_1_0_0_1_n_n.lhsIdx j q 0).val = (j 0).val := by
  unfold DotDims.lhsIdx
  rw [dif_neg (show ¬(0 : Fin S256x64.rank) ∈ dot_S256x64_S64x4096_S256x4096_1_0_0_1_n_n.lhsBatch by decide), dif_pos (show (0 : Fin S256x64.rank) ∈ dot_S256x64_S64x4096_S256x4096_1_0_0_1_n_n.lhsNonContracting by decide)]
  rfl
theorem selB_l1 (j : S256x4096.Idx) (q : dot_S256x64_S64x4096_S256x4096_1_0_0_1_n_n.contr.Idx) :
    (dot_S256x64_S64x4096_S256x4096_1_0_0_1_n_n.lhsIdx j q 1).val = (q ⟨0, by decide⟩).val :=
  dot_S256x64_S64x4096_S256x4096_1_0_0_1_n_n.lhsIdx_val_of_single rfl j q
theorem selB_r0 (j : S256x4096.Idx) (q : dot_S256x64_S64x4096_S256x4096_1_0_0_1_n_n.contr.Idx) :
    (dot_S256x64_S64x4096_S256x4096_1_0_0_1_n_n.rhsIdx j q 0).val = (q ⟨0, by decide⟩).val :=
  dot_S256x64_S64x4096_S256x4096_1_0_0_1_n_n.rhsIdx_val_of_single rfl j q
theorem selB_r1 (j : S256x4096.Idx) (q : dot_S256x64_S64x4096_S256x4096_1_0_0_1_n_n.contr.Idx) :
    (dot_S256x64_S64x4096_S256x4096_1_0_0_1_n_n.rhsIdx j q 1).val = (j 1).val := by
  unfold DotDims.rhsIdx
  rw [dif_neg (show ¬(1 : Fin S64x4096.rank) ∈ dot_S256x64_S64x4096_S256x4096_1_0_0_1_n_n.rhsBatch by decide), dif_pos (show (1 : Fin S64x4096.rank) ∈ dot_S256x64_S64x4096_S256x4096_1_0_0_1_n_n.rhsNonContracting by decide)]
  rfl

/-- Entry (p, c) of the selector product is the sum over the table rows e of selector (p, e) times table (e, c). -/
theorem selB_apply {φ₁ φ₂ : FTy} (lhs : FVec Ideal S256x64 φ₁) (rhs : FVec Ideal S64x4096 φ₂) (p : Fin 256) (c : Fin 4096) :
    matmul dot_S256x64_S64x4096_S256x4096_1_0_0_1_n_n none lhs rhs (constant S256x4096 .f32 0x00000000#32) (ix2 p c)
      = ∑ e : Fin 64, lhs (ix2 p e) * rhs (ix2 e c) := by
  refine (Ideal.matmul_constant_zero_apply dot_S256x64_S64x4096_S256x4096_1_0_0_1_n_n none lhs rhs (ix2 p c)).trans ?_
  rw [← Equiv.sum_comp (contrEquiv1 dot_S256x64_S64x4096_S256x4096_1_0_0_1_n_n 64 rfl rfl).symm]
  refine Finset.sum_congr rfl fun k _ => ?_
  have hk := contrEquiv1_symm_val dot_S256x64_S64x4096_S256x4096_1_0_0_1_n_n 64 rfl rfl k
  have el : dot_S256x64_S64x4096_S256x4096_1_0_0_1_n_n.lhsIdx (ix2 p c) ((contrEquiv1 dot_S256x64_S64x4096_S256x4096_1_0_0_1_n_n 64 rfl rfl).symm k) = ix2 p k := funext fun a => Fin.ext (by
    match a with
    | ⟨0, _⟩ => exact selB_l0 _ _
    | ⟨1, _⟩ => exact (selB_l1 _ _).trans hk)
  have er : dot_S256x64_S64x4096_S256x4096_1_0_0_1_n_n.rhsIdx (ix2 p c) ((contrEquiv1 dot_S256x64_S64x4096_S256x4096_1_0_0_1_n_n 64 rfl rfl).symm k) = ix2 k c := funext fun a => Fin.ext (by
    match a with
    | ⟨0, _⟩ => exact (selB_r0 _ _).trans hk
    | ⟨1, _⟩ => exact selB_r1 _ _)
  rw [el, er]

/-! ## The contraction of a row's matrix with its input block -/

theorem conB_l0 (j : S256x64x3.Idx) (q : dot_S256x64x64_S256x64x3_S256x64x3_1_1_2_2_0_0.contr.Idx) :
    (dot_S256x64x64_S256x64x3_S256x64x3_1_1_2_2_0_0.lhsIdx j q 0).val = (j 0).val := by
  unfold DotDims.lhsIdx
  rw [dif_pos (show (0 : Fin S256x64x64.rank) ∈ dot_S256x64x64_S256x64x3_S256x64x3_1_1_2_2_0_0.lhsBatch by decide)]
  rfl
theorem conB_l1 (j : S256x64x3.Idx) (q : dot_S256x64x64_S256x64x3_S256x64x3_1_1_2_2_0_0.contr.Idx) :
    (dot_S256x64x64_S256x64x3_S256x64x3_1_1_2_2_0_0.lhsIdx j q 1).val = (q ⟨0, by decide⟩).val :=
  dot_S256x64x64_S256x64x3_S256x64x3_1_1_2_2_0_0.lhsIdx_val_of_single rfl j q
theorem conB_l2 (j : S256x64x3.Idx) (q : dot_S256x64x64_S256x64x3_S256x64x3_1_1_2_2_0_0.contr.Idx) :
    (dot_S256x64x64_S256x64x3_S256x64x3_1_1_2_2_0_0.lhsIdx j q 2).val = (j 1).val := by
  unfold DotDims.lhsIdx
  rw [dif_neg (show ¬(2 : Fin S256x64x64.rank) ∈ dot_S256x64x64_S256x64x3_S256x64x3_1_1_2_2_0_0.lhsBatch by decide), dif_pos (show (2 : Fin S256x64x64.rank) ∈ dot_S256x64x64_S256x64x3_S256x64x3_1_1_2_2_0_0.lhsNonContracting by decide)]
  rfl
theorem conB_r0 (j : S256x64x3.Idx) (q : dot_S256x64x64_S256x64x3_S256x64x3_1_1_2_2_0_0.contr.Idx) :
    (dot_S256x64x64_S256x64x3_S256x64x3_1_1_2_2_0_0.rhsIdx j q 0).val = (j 0).val := by
  unfold DotDims.rhsIdx
  rw [dif_pos (show (0 : Fin S256x64x3.rank) ∈ dot_S256x64x64_S256x64x3_S256x64x3_1_1_2_2_0_0.rhsBatch by decide)]
  rfl
theorem conB_r1 (j : S256x64x3.Idx) (q : dot_S256x64x64_S256x64x3_S256x64x3_1_1_2_2_0_0.contr.Idx) :
    (dot_S256x64x64_S256x64x3_S256x64x3_1_1_2_2_0_0.rhsIdx j q 1).val = (q ⟨0, by decide⟩).val :=
  dot_S256x64x64_S256x64x3_S256x64x3_1_1_2_2_0_0.rhsIdx_val_of_single rfl j q
theorem conB_r2 (j : S256x64x3.Idx) (q : dot_S256x64x64_S256x64x3_S256x64x3_1_1_2_2_0_0.contr.Idx) :
    (dot_S256x64x64_S256x64x3_S256x64x3_1_1_2_2_0_0.rhsIdx j q 2).val = (j 2).val := by
  unfold DotDims.rhsIdx
  rw [dif_neg (show ¬(2 : Fin S256x64x3.rank) ∈ dot_S256x64x64_S256x64x3_S256x64x3_1_1_2_2_0_0.rhsBatch by decide), dif_pos (show (2 : Fin S256x64x3.rank) ∈ dot_S256x64x64_S256x64x3_S256x64x3_1_1_2_2_0_0.rhsNonContracting by decide)]
  rfl

/-- Entry (p, o, c) of the contraction is the sum over i of matrix (p, i, o) times input block (p, i, c). -/
theorem conB_apply {φ₁ φ₂ : FTy} (lhs : FVec Ideal S256x64x64 φ₁) (rhs : FVec Ideal S256x64x3 φ₂) (p : Fin 256) (o : Fin 64) (c : Fin 3) :
    matmul dot_S256x64x64_S256x64x3_S256x64x3_1_1_2_2_0_0 none lhs rhs (constant S256x64x3 .f32 0x00000000#32) (ix3 p o c)
      = ∑ i : Fin 64, lhs (ix3 p i o) * rhs (ix3 p i c) := by
  refine (Ideal.matmul_constant_zero_apply dot_S256x64x64_S256x64x3_S256x64x3_1_1_2_2_0_0 none lhs rhs (ix3 p o c)).trans ?_
  rw [← Equiv.sum_comp (contrEquiv1 dot_S256x64x64_S256x64x3_S256x64x3_1_1_2_2_0_0 64 rfl rfl).symm]
  refine Finset.sum_congr rfl fun k _ => ?_
  have hk := contrEquiv1_symm_val dot_S256x64x64_S256x64x3_S256x64x3_1_1_2_2_0_0 64 rfl rfl k
  have el : dot_S256x64x64_S256x64x3_S256x64x3_1_1_2_2_0_0.lhsIdx (ix3 p o c) ((contrEquiv1 dot_S256x64x64_S256x64x3_S256x64x3_1_1_2_2_0_0 64 rfl rfl).symm k) = ix3 p k o := funext fun a => Fin.ext (by
    match a with
    | ⟨0, _⟩ => exact conB_l0 _ _
    | ⟨1, _⟩ => exact (conB_l1 _ _).trans hk
    | ⟨2, _⟩ => exact conB_l2 _ _)
  have er : dot_S256x64x64_S256x64x3_S256x64x3_1_1_2_2_0_0.rhsIdx (ix3 p o c) ((contrEquiv1 dot_S256x64x64_S256x64x3_S256x64x3_1_1_2_2_0_0 64 rfl rfl).symm k) = ix3 p k c := funext fun a => Fin.ext (by
    match a with
    | ⟨0, _⟩ => exact conB_r0 _ _
    | ⟨1, _⟩ => exact (conB_r1 _ _).trans hk
    | ⟨2, _⟩ => exact conB_r2 _ _)
  rw [el, er]

/-! ## The block at an index -/

/-- Row p of the gathered table: the weight row p's index word names, at the slice's column c. -/
theorem gatheredB_apply (v0 : IVec S256x1 32) (v10 : FVec Ideal S64x14336 .f32) (p : Fin 256) (c : Fin 4096)
    (hw : (v0 (ix2 p 0)).toNat < 64) :
    matmul dot_S256x64_S64x4096_S256x4096_1_0_0_1_n_n none (oneHot (F := Ideal) v0)
        (extractStridedSlice S64x4096 ![0, 9216] (truncf .bf16 v10 bitsLt_bf16_f32) slices_S64x14336_o0_9216_S64x4096)
        (constant S256x4096 .f32 0x00000000#32) (ix2 p c)
      = v10 (ix2 (rowOf (v0 (ix2 p 0))) (⟨9216 + c.val, by have := c.isLt; omega⟩ : Fin 14336)) := by
  rw [selB_apply]
  simp only [oneHot_apply]
  rw [sum_oneHot _ hw]
  exact extractStridedSlice_apply ![0, 9216] (truncf .bf16 v10 bitsLt_bf16_f32) slices_S64x14336_o0_9216_S64x4096
    (ix2 (rowOf (v0 (ix2 p 0))) c) (ix2 (rowOf (v0 (ix2 p 0))) (⟨9216 + c.val, by have := c.isLt; omega⟩ : Fin 14336))
    (fun a => match a with
      | ⟨0, _⟩ => by show (rowOf (v0 (ix2 p 0))).val = 0 + (rowOf (v0 (ix2 p 0))).val; omega
      | ⟨1, _⟩ => rfl)

/-- Column q of row p of the second block: the contraction of the row's own 64 × 64 weight matrix with its 64 × 3
    input block, at matrix column q / 3 and input column q % 3. -/
theorem pieceB_apply (v0 : IVec S256x1 32) (v8 : FVec Ideal S256x448 .f32) (v10 : FVec Ideal S64x14336 .f32)
    (p : Fin 256) (q : Fin 192) (hw : (v0 (ix2 p 0)).toNat < 64) :
    pieceB (F := Ideal) v0 v8 v10 (ix2 p q)
      = ∑ i : Fin 64, v10 (ix2 (rowOf (v0 (ix2 p 0))) (⟨9216 + i.val * 64 + q.val / 3, by have := i.isLt; have := q.isLt; omega⟩ : Fin 14336))
          * v8 (ix2 p (⟨96 + i.val * 3 + q.val % 3, by have := i.isLt; have := q.isLt; omega⟩ : Fin 448)) := by
  have hq := q.isLt
  unfold pieceB
  refine (shapeCast_apply _ shapeCasts_S256x64x3_S256x192 (ix2 p q)
    (ix3 p (⟨q.val / 3, by omega⟩ : Fin 64) (⟨q.val % 3, by omega⟩ : Fin 3)) (by
      rewrite [Shape.rowMajor_val_three, Shape.rowMajor_val_two]
      show (p.val * 64 + q.val / 3) * 3 + q.val % 3 = p.val * 192 + q.val
      omega)).trans ?_
  rw [conB_apply]
  refine Finset.sum_congr rfl fun i _ => ?_
  have hi := i.isLt
  congr 1
  · -- the matrix entry (i, q / 3) of row p is entry 64 i + q / 3 of the gathered flat row
    rw [truncf_apply]
    refine (shapeCast_apply _ shapeCasts_S256x4096_S256x64x64 (ix3 p i (⟨q.val / 3, by omega⟩ : Fin 64))
      (ix2 p (⟨i.val * 64 + q.val / 3, by omega⟩ : Fin 4096)) (by
        rewrite [Shape.rowMajor_val_two, Shape.rowMajor_val_three]
        show p.val * 4096 + (i.val * 64 + q.val / 3) = (p.val * 64 + i.val) * 64 + q.val / 3
        omega)).trans ?_
    rw [gatheredB_apply v0 v10 p _ hw]
    exact congrArg v10 (funext fun a => match a with
      | ⟨0, _⟩ => rfl
      | ⟨1, _⟩ => Fin.ext (by show 9216 + (i.val * 64 + q.val / 3) = 9216 + i.val * 64 + q.val / 3; omega))
  · -- the input block entry (i, q % 3) of row p is column 96 + 3 i + q % 3 of the row
    refine (shapeCast_apply _ shapeCasts_S256x192_S256x64x3 (ix3 p i (⟨q.val % 3, by omega⟩ : Fin 3))
      (ix2 p (⟨i.val * 3 + q.val % 3, by omega⟩ : Fin 192)) (by
        rewrite [Shape.rowMajor_val_two, Shape.rowMajor_val_three]
        show p.val * 192 + (i.val * 3 + q.val % 3) = (p.val * 64 + i.val) * 3 + q.val % 3
        omega)).trans ?_
    exact extractStridedSlice_apply ![0, 96] (truncf .bf16 v8 bitsLt_bf16_f32) slices_S256x448_o0_96_S256x192
      (ix2 p (⟨i.val * 3 + q.val % 3, by omega⟩ : Fin 192)) (ix2 p (⟨96 + i.val * 3 + q.val % 3, by omega⟩ : Fin 448))
      (fun a => match a with
        | ⟨0, _⟩ => by show p.val = 0 + p.val; omega
        | ⟨1, _⟩ => by show 96 + i.val * 3 + q.val % 3 = 96 + (i.val * 3 + q.val % 3); omega)

end Cert.SegLinear.Ker

end
-- ==== Proof.KerC.lean ====
/-
  The kernel's third result block on one tile of 256 rows, read at an index.

  Each row p of the tile carries an index word naming one of the 64 rows of the weight table. Multiplying the
  selector by the table's columns 13312 … 14335 (a 64 × 1024 slice) leaves, in row p, the 1024 entries of the named
  weight row: a 32 × 32 matrix written row after row. Row p's input block is columns 288 … 447 of the input, a
  32 × 5 block written the same way. Summing matrix entry (i, o) times block entry (i, c) over the 32 values of i
  gives the 32 × 5 result block of row p, written flat as 160 columns, o · 5 + c being the column of entry (o, c):
  column q of row p is Σ_i W[row, 13312 + 32 i + q / 5] · X[p, 288 + 5 i + q % 5].
-/
import proofs.«400696_j46497315947084_1_alg».proof.Proof.KerOneHot
import Idealize.ShloMosaic.PureOps.Ideal.Laws

noncomputable section

open scoped BigOperators

namespace Cert.SegLinear.Ker

open Idealize.ShloMosaic Idealize.ShloMosaic.ValueIdx Cert.KernelIdeal Cert.KernelIdeal.Gen Cert.SegLinear

variable {F : FTy → Type} [FloatOps F]

/-- The third block as the kernel computes it from the tile's index column, the tile's input rows and the whole
    weight table. -/
def pieceC (v0 : Vec F S256x1 .i32) (v8 : Vec F S256x448 .f32) (v10 : Vec F S64x14336 .f32) : FVec F S256x160 .f32 :=
  shapeCast S256x160
    (matmul dot_S256x32x32_S256x32x5_S256x32x5_1_1_2_2_0_0 none
      (truncf .bf16 (shapeCast S256x32x32
        (matmul dot_S256x64_S64x1024_S256x1024_1_0_0_1_n_n none (oneHot v0)
          (extractStridedSlice S64x1024 ![0, 13312] (truncf .bf16 v10 bitsLt_bf16_f32) slices_S64x14336_o0_13312_S64x1024)
          (constant S256x1024 .f32 0x00000000#32))
        shapeCasts_S256x1024_S256x32x32) bitsLt_bf16_f32)
      (shapeCast S256x32x5
        (extractStridedSlice S256x160 ![0, 288] (truncf .bf16 v8 bitsLt_bf16_f32) slices_S256x448_o0_288_S256x160)
        shapeCasts_S256x160_S256x32x5)
      (constant S256x32x5 .f32 0x00000000#32))
    shapeCasts_S256x32x5_S256x160

/-! ## The selector product: the tile's rows against the slice's 1024 columns, summed over the 64 table rows -/

theorem selC_l0 (j : S256x1024.Idx) (q : dot_S256x64_S64x1024_S256x1024_1_0_0_1_n_n.contr.Idx) :
    (dot_S256x64_S64x1024_S256x1024_1_0_0_1_n_n.lhsIdx j q 0).val = (j 0).val := by
  unfold DotDims.lhsIdx
  rw [dif_neg (show ¬(0 : Fin S256x64.rank) ∈ dot_S256x64_S64x1024_S256x1024_1_0_0_1_n_n.lhsBatch by decide), dif_pos (show (0 : Fin S256x64.rank) ∈ dot_S256x64_S64x1024_S256x1024_1_0_0_1_n_n.lhsNonContracting by decide)]
  rfl
theorem selC_l1 (j : S256x1024.Idx) (q : dot_S256x64_S64x1024_S256x1024_1_0_0_1_n_n.contr.Idx) :
    (dot_S256x64_S64x1024_S256x1024_1_0_0_1_n_n.lhsIdx j q 1).val = (q ⟨0, by decide⟩).val :=
  dot_S256x64_S64x1024_S256x1024_1_0_0_1_n_n.lhsIdx_val_of_single rfl j q
theorem selC_r0 (j : S256x1024.Idx) (q : dot_S256x64_S64x1024_S256x1024_1_0_0_1_n_n.contr.Idx) :
    (dot_S256x64_S64x1024_S256x1024_1_0_0_1_n_n.rhsIdx j q 0).val = (q ⟨0, by decide⟩).val :=
  dot_S256x64_S64x1024_S256x1024_1_0_0_1_n_n.rhsIdx_val_of_single rfl j q
theorem selC_r1 (j : S256x1024.Idx) (q : dot_S256x64_S64x1024_S256x1024_1_0_0_1_n_n.contr.Idx) :
    (dot_S256x64_S64x1024_S256x1024_1_0_0_1_n_n.rhsIdx j q 1).val = (j 1).val := by
  unfold DotDims.rhsIdx
  rw [dif_neg (show ¬(1 : Fin S64x1024.rank) ∈ dot_S256x64_S64x1024_S256x1024_1_0_0_1_n_n.rhsBatch by decide), dif_pos (show (1 : Fin S64x1024.rank) ∈ dot_S256x64_S64x1024_S256x1024_1_0_0_1_n_n.rhsNonContracting by decide)]
  rfl

/-- Entry (p, c) of the selector product is the sum over the table rows e of selector (p, e) times slice (e, c). -/
theorem selC_apply {φ₁ φ₂ : FTy} (lhs : FVec Ideal S256x64 φ₁) (rhs : FVec Ideal S64x1024 φ₂) (p : Fin 256) (c : Fin 1024) :
    matmul dot_S256x64_S64x1024_S256x1024_1_0_0_1_n_n none lhs rhs (constant S256x1024 .f32 0x00000000#32) (ix2 p c)
      = ∑ e : Fin 64, lhs (ix2 p e) * rhs (ix2 e c) := by
  refine (Ideal.matmul_constant_zero_apply dot_S256x64_S64x1024_S256x1024_1_0_0_1_n_n none lhs rhs (ix2 p c)).trans ?_
  rw [← Equiv.sum_comp (contrEquiv1 dot_S256x64_S64x1024_S256x1024_1_0_0_1_n_n 64 rfl rfl).symm]
  refine Finset.sum_congr rfl fun k _ => ?_
  have hk := contrEquiv1_symm_val dot_S256x64_S64x1024_S256x1024_1_0_0_1_n_n 64 rfl rfl k
  have el : dot_S256x64_S64x1024_S256x1024_1_0_0_1_n_n.lhsIdx (ix2 p c) ((contrEquiv1 dot_S256x64_S64x1024_S256x1024_1_0_0_1_n_n 64 rfl rfl).symm k) = ix2 p k := funext fun a => Fin.ext (by
    match a with
    | ⟨0, _⟩ => exact selC_l0 _ _
    | ⟨1, _⟩ => exact (selC_l1 _ _).trans hk)
  have er : dot_S256x64_S64x1024_S256x1024_1_0_0_1_n_n.rhsIdx (ix2 p c) ((contrEquiv1 dot_S256x64_S64x1024_S256x1024_1_0_0_1_n_n 64 rfl rfl).symm k) = ix2 k c := funext fun a => Fin.ext (by
    match a with
    | ⟨0, _⟩ => exact (selC_r0 _ _).trans hk
    | ⟨1, _⟩ => exact selC_r1 _ _)
  rw [el, er]

/-! ## The contraction of a row's 32 × 32 matrix with its 32 × 5 input block -/

theorem conC_l0 (j : S256x32x5.Idx) (q : dot_S256x32x32_S256x32x5_S256x32x5_1_1_2_2_0_0.contr.Idx) :
    (dot_S256x32x32_S256x32x5_S256x32x5_1_1_2_2_0_0.lhsIdx j q 0).val = (j 0).val := by
  unfold DotDims.lhsIdx
  rw [dif_pos (show (0 : Fin S256x32x32.rank) ∈ dot_S256x32x32_S256x32x5_S256x32x5_1_1_2_2_0_0.lhsBatch by decide)]
  rfl
theorem conC_l1 (j : S256x32x5.Idx) (q : dot_S256x32x32_S256x32x5_S256x32x5_1_1_2_2_0_0.contr.Idx) :
    (dot_S256x32x32_S256x32x5_S256x32x5_1_1_2_2_0_0.lhsIdx j q 1).val = (q ⟨0, by decide⟩).val :=
  dot_S256x32x32_S256x32x5_S256x32x5_1_1_2_2_0_0.lhsIdx_val_of_single rfl j q
theorem conC_l2 (j : S256x32x5.Idx) (q : dot_S256x32x32_S256x32x5_S256x32x5_1_1_2_2_0_0.contr.Idx) :
    (dot_S256x32x32_S256x32x5_S256x32x5_1_1_2_2_0_0.lhsIdx j q 2).val = (j 1).val := by
  unfold DotDims.lhsIdx
  rw [dif_neg (show ¬(2 : Fin S256x32x32.rank) ∈ dot_S256x32x32_S256x32x5_S256x32x5_1_1_2_2_0_0.lhsBatch by decide), dif_pos (show (2 : Fin S256x32x32.rank) ∈ dot_S256x32x32_S256x32x5_S256x32x5_1_1_2_2_0_0.lhsNonContracting by decide)]
  rfl
theorem conC_r0 (j : S256x32x5.Idx) (q : dot_S256x32x32_S256x32x5_S256x32x5_1_1_2_2_0_0.contr.Idx) :
    (dot_S256x32x32_S256x32x5_S256x32x5_1_1_2_2_0_0.rhsIdx j q 0).val = (j 0).val := by
  unfold DotDims.rhsIdx
  rw [dif_pos (show (0 : Fin S256x32x5.rank) ∈ dot_S256x32x32_S256x32x5_S256x32x5_1_1_2_2_0_0.rhsBatch by decide)]
  rfl
theorem conC_r1 (j : S256x32x5.Idx) (q : dot_S256x32x32_S256x32x5_S256x32x5_1_1_2_2_0_0.contr.Idx) :
    (dot_S256x32x32_S256x32x5_S256x32x5_1_1_2_2_0_0.rhsIdx j q 1).val = (q ⟨0, by decide⟩).val :=
  dot_S256x32x32_S256x32x5_S256x32x5_1_1_2_2_0_0.rhsIdx_val_of_single rfl j q
theorem conC_r2 (j : S256x32x5.Idx) (q : dot_S256x32x32_S256x32x5_S256x32x5_1_1_2_2_0_0.contr.Idx) :
    (dot_S256x32x32_S256x32x5_S256x32x5_1_1_2_2_0_0.rhsIdx j q 2).val = (j 2).val := by
  unfold DotDims.rhsIdx
  rw [dif_neg (show ¬(2 : Fin S256x32x5.rank) ∈ dot_S256x32x32_S256x32x5_S256x32x5_1_1_2_2_0_0.rhsBatch by decide), dif_pos (show (2 : Fin S256x32x5.rank) ∈ dot_S256x32x32_S256x32x5_S256x32x5_1_1_2_2_0_0.rhsNonContracting by decide)]
  rfl

/-- Entry (p, o, c) of the contraction is the sum over i of matrix (p, i, o) times input block (p, i, c). -/
theorem conC_apply {φ₁ φ₂ : FTy} (lhs : FVec Ideal S256x32x32 φ₁) (rhs : FVec Ideal S256x32x5 φ₂) (p : Fin 256) (o : Fin 32) (c : Fin 5) :
    matmul dot_S256x32x32_S256x32x5_S256x32x5_1_1_2_2_0_0 none lhs rhs (constant S256x32x5 .f32 0x00000000#32) (ix3 p o c)
      = ∑ i : Fin 32, lhs (ix3 p i o) * rhs (ix3 p i c) := by
  refine (Ideal.matmul_constant_zero_apply dot_S256x32x32_S256x32x5_S256x32x5_1_1_2_2_0_0 none lhs rhs (ix3 p o c)).trans ?_
  rw [← Equiv.sum_comp (contrEquiv1 dot_S256x32x32_S256x32x5_S256x32x5_1_1_2_2_0_0 32 rfl rfl).symm]
  refine Finset.sum_congr rfl fun k _ => ?_
  have hk := contrEquiv1_symm_val dot_S256x32x32_S256x32x5_S256x32x5_1_1_2_2_0_0 32 rfl rfl k
  have el : dot_S256x32x32_S256x32x5_S256x32x5_1_1_2_2_0_0.lhsIdx (ix3 p o c) ((contrEquiv1 dot_S256x32x32_S256x32x5_S256x32x5_1_1_2_2_0_0 32 rfl rfl).symm k) = ix3 p k o := funext fun a => Fin.ext (by
    match a with
    | ⟨0, _⟩ => exact conC_l0 _ _
    | ⟨1, _⟩ => exact (conC_l1 _ _).trans hk
    | ⟨2, _⟩ => exact conC_l2 _ _)
  have er : dot_S256x32x32_S256x32x5_S256x32x5_1_1_2_2_0_0.rhsIdx (ix3 p o c) ((contrEquiv1 dot_S256x32x32_S256x32x5_S256x32x5_1_1_2_2_0_0 32 rfl rfl).symm k) = ix3 p k c := funext fun a => Fin.ext (by
    match a with
    | ⟨0, _⟩ => exact conC_r0 _ _
    | ⟨1, _⟩ => exact (conC_r1 _ _).trans hk
    | ⟨2, _⟩ => exact conC_r2 _ _)
  rw [el, er]

/-! ## The block at an index -/

/-- Row p of the gathered table: the weight row p's index word names, at the slice's column c. -/
theorem gatheredC_apply (v0 : IVec S256x1 32) (v10 : FVec Ideal S64x14336 .f32) (p : Fin 256) (c : Fin 1024)
    (hw : (v0 (ix2 p 0)).toNat < 64) :
    matmul dot_S256x64_S64x1024_S256x1024_1_0_0_1_n_n none (oneHot (F := Ideal) v0)
        (extractStridedSlice S64x1024 ![0, 13312] (truncf .bf16 v10 bitsLt_bf16_f32) slices_S64x14336_o0_13312_S64x1024)
        (constant S256x1024 .f32 0x00000000#32) (ix2 p c)
      = v10 (ix2 (rowOf (v0 (ix2 p 0))) (⟨13312 + c.val, by have := c.isLt; omega⟩ : Fin 14336)) := by
  rw [selC_apply]
  simp only [oneHot_apply]
  rw [sum_oneHot _ hw]
  exact extractStridedSlice_apply ![0, 13312] (truncf .bf16 v10 bitsLt_bf16_f32) slices_S64x14336_o0_13312_S64x1024
    (ix2 (rowOf (v0 (ix2 p 0))) c) (ix2 (rowOf (v0 (ix2 p 0))) (⟨13312 + c.val, by have := c.isLt; omega⟩ : Fin 14336))
    (fun a => match a with
      | ⟨0, _⟩ => by show (rowOf (v0 (ix2 p 0))).val = 0 + (rowOf (v0 (ix2 p 0))).val; omega
      | ⟨1, _⟩ => rfl)

/-- Column q of row p of the third block: the contraction of the row's own 32 × 32 weight matrix with its 32 × 5
    input block, at matrix column q / 5 and input column q % 5. -/
theorem pieceC_apply (v0 : IVec S256x1 32) (v8 : FVec Ideal S256x448 .f32) (v10 : FVec Ideal S64x14336 .f32)
    (p : Fin 256) (q : Fin 160) (hw : (v0 (ix2 p 0)).toNat < 64) :
    pieceC (F := Ideal) v0 v8 v10 (ix2 p q)
      = ∑ i : Fin 32, v10 (ix2 (rowOf (v0 (ix2 p 0))) (⟨13312 + i.val * 32 + q.val / 5, by have := i.isLt; have := q.isLt; omega⟩ : Fin 14336))
          * v8 (ix2 p (⟨288 + i.val * 5 + q.val % 5, by have := i.isLt; have := q.isLt; omega⟩ : Fin 448)) := by
  have hq := q.isLt
  unfold pieceC
  refine (shapeCast_apply _ shapeCasts_S256x32x5_S256x160 (ix2 p q)
    (ix3 p (⟨q.val / 5, by omega⟩ : Fin 32) (⟨q.val % 5, by omega⟩ : Fin 5)) (by
      rewrite [Shape.rowMajor_val_three, Shape.rowMajor_val_two]
      show (p.val * 32 + q.val / 5) * 5 + q.val % 5 = p.val * 160 + q.val
      omega)).trans ?_
  rw [conC_apply]
  refine Finset.sum_congr rfl fun i _ => ?_
  have hi := i.isLt
  congr 1
  · -- the matrix entry (i, q / 5) of row p is entry 32 i + q / 5 of the gathered flat row
    rw [truncf_apply]
    refine (shapeCast_apply _ shapeCasts_S256x1024_S256x32x32 (ix3 p i (⟨q.val / 5, by omega⟩ : Fin 32))
      (ix2 p (⟨i.val * 32 + q.val / 5, by omega⟩ : Fin 1024)) (by
        rewrite [Shape.rowMajor_val_two, Shape.rowMajor_val_three]
        show p.val * 1024 + (i.val * 32 + q.val / 5) = (p.val * 32 + i.val) * 32 + q.val / 5
        omega)).trans ?_
    rw [gatheredC_apply v0 v10 p _ hw]
    exact congrArg v10 (funext fun a => match a with
      | ⟨0, _⟩ => rfl
      | ⟨1, _⟩ => Fin.ext (by show 13312 + (i.val * 32 + q.val / 5) = 13312 + i.val * 32 + q.val / 5; omega))
  · -- the input block entry (i, q % 5) of row p is column 288 + 5 i + q % 5 of the row
    refine (shapeCast_apply _ shapeCasts_S256x160_S256x32x5 (ix3 p i (⟨q.val % 5, by omega⟩ : Fin 5))
      (ix2 p (⟨i.val * 5 + q.val % 5, by omega⟩ : Fin 160)) (by
        rewrite [Shape.rowMajor_val_two, Shape.rowMajor_val_three]
        show p.val * 160 + (i.val * 5 + q.val % 5) = (p.val * 32 + i.val) * 5 + q.val % 5
        omega)).trans ?_
    exact extractStridedSlice_apply ![0, 288] (truncf .bf16 v8 bitsLt_bf16_f32) slices_S256x448_o0_288_S256x160
      (ix2 p (⟨i.val * 5 + q.val % 5, by omega⟩ : Fin 160)) (ix2 p (⟨288 + i.val * 5 + q.val % 5, by omega⟩ : Fin 448))
      (fun a => match a with
        | ⟨0, _⟩ => by show p.val = 0 + p.val; omega
        | ⟨1, _⟩ => by show 288 + i.val * 5 + q.val % 5 = 288 + (i.val * 5 + q.val % 5); omega)

end Cert.SegLinear.Ker

end
-- ==== Proof.Cat3.lean ====
/-
  Three blocks of 96, 192 and 160 columns side by side, read at an index: column q of row p comes from the first
  block for q < 96, from the second at column q − 96 for 96 ≤ q < 288, and from the third at column q − 288 from
  there on.
-/
import Idealize.ShloMosaic.PureOps
import Idealize.ShloMosaic.Lib.ValueIdx
import Idealize.ShloMosaic.Lib.Pipeline.Value

noncomputable section

namespace Cert.SegLinear.Cat3

open Idealize.ShloMosaic Idealize.ShloMosaic.ValueIdx

variable {α : Type} {R : Nat}

theorem left (hcat : Shape.Concatenates [(⟨2, ![R, 96]⟩ : Shape), ⟨2, ![R, 192]⟩, ⟨2, ![R, 160]⟩] (⟨2, ![R, 448]⟩ : Shape) 1)
    (xa : (⟨2, ![R, 96]⟩ : Shape).Idx → α) (xb : (⟨2, ![R, 192]⟩ : Shape).Idx → α) (xc : (⟨2, ![R, 160]⟩ : Shape).Idx → α)
    (p : Fin R) (q : Fin 448) (h : q.val < 96) :
    concatenate (⟨2, ![R, 448]⟩ : Shape) 1 [⟨⟨2, ![R, 96]⟩, xa⟩, ⟨⟨2, ![R, 192]⟩, xb⟩, ⟨⟨2, ![R, 160]⟩, xc⟩] hcat (ix2 p q)
      = xa (ix2 p (⟨q.val, h⟩ : Fin 96)) :=
  concatenate_apply_piece (t := (⟨2, ![R, 448]⟩ : Shape)) (1 : Fin 2) [⟨⟨2, ![R, 96]⟩, xa⟩, ⟨⟨2, ![R, 192]⟩, xb⟩, ⟨⟨2, ![R, 160]⟩, xc⟩] hcat (ix2 p q)
    0 (by show 0 < 3; omega) ⟨2, ![R, 96]⟩ xa rfl rfl 0 rfl (ix2 p (⟨q.val, h⟩ : Fin 96))
    (fun b hb => match b, hb with | ⟨0, _⟩, _ => rfl | ⟨1, _⟩, hb => absurd rfl hb)
    (by show 0 + q.val = q.val; omega)

theorem mid (hcat : Shape.Concatenates [(⟨2, ![R, 96]⟩ : Shape), ⟨2, ![R, 192]⟩, ⟨2, ![R, 160]⟩] (⟨2, ![R, 448]⟩ : Shape) 1)
    (xa : (⟨2, ![R, 96]⟩ : Shape).Idx → α) (xb : (⟨2, ![R, 192]⟩ : Shape).Idx → α) (xc : (⟨2, ![R, 160]⟩ : Shape).Idx → α)
    (p : Fin R) (q : Fin 448) (h1 : 96 ≤ q.val) (h2 : q.val < 288) :
    concatenate (⟨2, ![R, 448]⟩ : Shape) 1 [⟨⟨2, ![R, 96]⟩, xa⟩, ⟨⟨2, ![R, 192]⟩, xb⟩, ⟨⟨2, ![R, 160]⟩, xc⟩] hcat (ix2 p q)
      = xb (ix2 p (⟨q.val - 96, by omega⟩ : Fin 192)) :=
  concatenate_apply_piece (t := (⟨2, ![R, 448]⟩ : Shape)) (1 : Fin 2) [⟨⟨2, ![R, 96]⟩, xa⟩, ⟨⟨2, ![R, 192]⟩, xb⟩, ⟨⟨2, ![R, 160]⟩, xc⟩] hcat (ix2 p q)
    1 (by show 1 < 3; omega) ⟨2, ![R, 192]⟩ xb rfl rfl 96 rfl (ix2 p (⟨q.val - 96, by omega⟩ : Fin 192))
    (fun b hb => match b, hb with | ⟨0, _⟩, _ => rfl | ⟨1, _⟩, hb => absurd rfl hb)
    (by show 96 + (q.val - 96) = q.val; omega)

theorem right (hcat : Shape.Concatenates [(⟨2, ![R, 96]⟩ : Shape), ⟨2, ![R, 192]⟩, ⟨2, ![R, 160]⟩] (⟨2, ![R, 448]⟩ : Shape) 1)
    (xa : (⟨2, ![R, 96]⟩ : Shape).Idx → α) (xb : (⟨2, ![R, 192]⟩ : Shape).Idx → α) (xc : (⟨2, ![R, 160]⟩ : Shape).Idx → α)
    (p : Fin R) (q : Fin 448) (h : 288 ≤ q.val) :
    concatenate (⟨2, ![R, 448]⟩ : Shape) 1 [⟨⟨2, ![R, 96]⟩, xa⟩, ⟨⟨2, ![R, 192]⟩, xb⟩, ⟨⟨2, ![R, 160]⟩, xc⟩] hcat (ix2 p q)
      = xc (ix2 p (⟨q.val - 288, by have := q.isLt; omega⟩ : Fin 160)) :=
  concatenate_apply_piece (t := (⟨2, ![R, 448]⟩ : Shape)) (1 : Fin 2) [⟨⟨2, ![R, 96]⟩, xa⟩, ⟨⟨2, ![R, 192]⟩, xb⟩, ⟨⟨2, ![R, 160]⟩, xc⟩] hcat (ix2 p q)
    2 (by show 2 < 3; omega) ⟨2, ![R, 160]⟩ xc rfl rfl 288 rfl (ix2 p (⟨q.val - 288, by have := q.isLt; omega⟩ : Fin 160))
    (fun b hb => match b, hb with | ⟨0, _⟩, _ => rfl | ⟨1, _⟩, hb => absurd rfl hb)
    (by show 288 + (q.val - 288) = q.val; omega)

end Cert.SegLinear.Cat3

end
-- ==== Proof.KerTile.lean ====
/-
  One tile of 256 rows: what the kernel's body stores is the function's rows of that tile.

  The stored vector is the three computed blocks side by side (96, 192 and 160 columns); the function is its three
  blocks side by side too. Column q of row p of tile T falls in the same block on both sides, and there the kernel's
  contraction of the row's own weight matrix with its input block is the function's, the tile's index column, input
  rows and weight table being rows 256 T … 256 T + 255 of the index vector and of the input, and the whole table.
-/
import proofs.«400696_j46497315947084_1_alg».proof.Proof.KerA
import proofs.«400696_j46497315947084_1_alg».proof.Proof.KerB
import proofs.«400696_j46497315947084_1_alg».proof.Proof.KerC
import proofs.«400696_j46497315947084_1_alg».proof.Proof.Cat3

noncomputable section

open scoped BigOperators

namespace Cert.SegLinear.Ker

open Idealize.ShloMosaic Idealize.ShloMosaic.ValueIdx Cert.KernelIdeal Cert.KernelIdeal.Gen Cert.SegLinear

variable {F : FTy → Type} [FloatOps F]

/-- The body's stored value is the three blocks side by side. -/
theorem pay_eq (v0 : Vec F S256x1 .i32) (v8 : Vec F S256x448 .f32) (v10 : Vec F S64x14336 .f32) :
    k0_pay1 v0 v8 v10
      = concatenate S256x448 1 [⟨S256x96, pieceA v0 v8 v10⟩, ⟨S256x192, pieceB v0 v8 v10⟩, ⟨S256x160, pieceC v0 v8 v10⟩]
          concatenates_S256x96_S256x192_S256x160_S256x448_d1 := rfl

/-- Row p, column q of what tile T stores is the function at row 256 T + p, column q. -/
theorem tile_eq (W : SW.Idx → EReal) (X : SX.Idx → EReal) (idx : SI.Idx → BitVec 32)
    (hidx : ∀ b : Fin 16384, (idx (ix1 b)).toNat < 64) (T : Fin 64)
    (v0 : IVec S256x1 32) (v8 : FVec Ideal S256x448 .f32) (v10 : FVec Ideal S64x14336 .f32)
    (h0 : ∀ p : Fin 256, v0 (ix2 p 0) = idx (ix1 (⟨T.val * 256 + p.val, by have := T.isLt; have := p.isLt; omega⟩ : Fin 16384)))
    (h8 : ∀ (p : Fin 256) (c : Fin 448),
      v8 (ix2 p c) = X (ix2 (⟨T.val * 256 + p.val, by have := T.isLt; have := p.isLt; omega⟩ : Fin 16384) c))
    (h10 : ∀ (r : Fin 64) (c : Fin 14336), v10 (ix2 r c) = W (ix2 r c))
    (p : Fin 256) (q : Fin 448) :
    k0_pay1 (F := Ideal) v0 v8 v10 (ix2 p q)
      = result W X idx (ix2 (⟨T.val * 256 + p.val, by have := T.isLt; have := p.isLt; omega⟩ : Fin 16384) q) := by
  have hq := q.isLt
  have hw : (v0 (ix2 p 0)).toNat < 64 := by rw [h0]; exact hidx _
  rw [pay_eq]
  unfold result
  by_cases hA : q.val < 96
  · -- the first block: columns 0 … 95
    rw [Cat3.left concatenates_S256x96_S256x192_S256x160_S256x448_d1 _ _ _ p q hA, Cat3.left sideBySide _ _ _ _ q hA, pieceA_apply v0 v8 v10 p ⟨q.val, hA⟩ hw]
    show _ = segA W X (rowOf (idx (ix1 ⟨T.val * 256 + p.val, _⟩))) ⟨T.val * 256 + p.val, _⟩ ⟨q.val, hA⟩
    unfold segA
    refine Finset.sum_congr rfl fun i _ => ?_
    rw [h10, h8, h0]
  · by_cases hB : q.val < 288
    · -- the second block: columns 96 … 287
      rw [Cat3.mid concatenates_S256x96_S256x192_S256x160_S256x448_d1 _ _ _ p q (by omega) hB, Cat3.mid sideBySide _ _ _ _ q (by omega) hB,
        pieceB_apply v0 v8 v10 p ⟨q.val - 96, by omega⟩ hw]
      show _ = segB W X (rowOf (idx (ix1 ⟨T.val * 256 + p.val, _⟩))) ⟨T.val * 256 + p.val, _⟩ ⟨q.val - 96, _⟩
      unfold segB
      refine Finset.sum_congr rfl fun i _ => ?_
      rw [h10, h8, h0]
    · -- the third block: columns 288 … 447
      rw [Cat3.right concatenates_S256x96_S256x192_S256x160_S256x448_d1 _ _ _ p q (by omega), Cat3.right sideBySide _ _ _ _ q (by omega),
        pieceC_apply v0 v8 v10 p ⟨q.val - 288, by omega⟩ hw]
      show _ = segC W X (rowOf (idx (ix1 ⟨T.val * 256 + p.val, _⟩))) ⟨T.val * 256 + p.val, _⟩ ⟨q.val - 288, _⟩
      unfold segC
      refine Finset.sum_congr rfl fun i _ => ?_
      rw [h10, h8, h0]

/-- The same at any index y of the tile: row (y 0), column (y 1). -/
theorem tile_eq_at (W : SW.Idx → EReal) (X : SX.Idx → EReal) (idx : SI.Idx → BitVec 32)
    (hidx : ∀ b : Fin 16384, (idx (ix1 b)).toNat < 64) (T : Fin 64)
    (v0 : IVec S256x1 32) (v8 : FVec Ideal S256x448 .f32) (v10 : FVec Ideal S64x14336 .f32)
    (h0 : ∀ p : Fin 256, v0 (ix2 p 0) = idx (ix1 (⟨T.val * 256 + p.val, by have := T.isLt; have := p.isLt; omega⟩ : Fin 16384)))
    (h8 : ∀ (p : Fin 256) (c : Fin 448),
      v8 (ix2 p c) = X (ix2 (⟨T.val * 256 + p.val, by have := T.isLt; have := p.isLt; omega⟩ : Fin 16384) c))
    (h10 : ∀ (r : Fin 64) (c : Fin 14336), v10 (ix2 r c) = W (ix2 r c))
    (y : S256x448.Idx) :
    k0_pay1 (F := Ideal) v0 v8 v10 y
      = result W X idx (ix2 (⟨T.val * 256 + (y 0).val, by have := T.isLt; have : (y 0).val < 256 := (y 0).isLt; omega⟩ : Fin 16384)
          (⟨(y 1).val, (y 1).isLt⟩ : Fin 448)) := by
  obtain ⟨p, q, rfl⟩ : ∃ (p : Fin 256) (q : Fin 448), y = ix2 p q := ⟨y 0, y 1, eq_ix2 y⟩
  exact tile_eq W X idx hidx T v0 v8 v10 h0 h8 h10 p q

end Cert.SegLinear.Ker

end
-- ==== Proof.KerRun.lean ====
/-
  The kernel's run, read: after it the result array holds the function of the three argument arrays.

  Tile t of the grid stages rows 256 t … 256 t + 255 of the input and of the index column (the index vector laid
  as one column by the reshape in front of the call) and the whole weight table, and writes back rows
  256 t … 256 t + 255 of the result. What it writes is the function's rows of that tile; the 64 tiles cover the
  16384 rows, so the array ends holding the function.
-/
import proofs.«400696_j46497315947084_1_alg».proof.Proof.Gen.KernelIdeal.Value
import proofs.«400696_j46497315947084_1_alg».proof.Proof.KerTile
import Idealize.ShloMosaic.Lib.Pipeline.Value
import Idealize.ShloMosaic.Lib.StableHlo.Run

set_option maxRecDepth 16384

noncomputable section

namespace Cert.SegLinear.KerRun

open Cert.KernelIdeal Cert.KernelIdeal.Gen Idealize.ShloMosaic Idealize.ShloMosaic.TcCoe Idealize.SL.Sem
open Idealize.ShloMosaic.ValueIdx Cert.SegLinear
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the 64 tiles: input rows, index column and result move with the tile number along the
    rows; the weight table stays whole. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The tile number as a number below 64. -/
abbrev tileOf (t : Fin cfg0.N) : Fin 64 := t.cast N_0

/-- The index column as the region finds it is the index vector laid as one column. -/
theorem V_idx (c : Dev nD) :
    (V m c main_v0 : S16384x1.Idx → BitVec 32)
      = shapeCast S16384x1 (m ((c : Thread nD τ).loc main_arg2)) shapeCasts_S16384_S16384x1 := by
  dsimp only [V, hostOps0]
  after_results
  rfl

/-- Row p of tile t's index column is index word 256 t + p. -/
theorem blk_idx (c : Dev nD) (t : Fin cfg0.N) (p : Fin 256) :
    (iblk m c 1 t : IVec S256x1 32) (ix2 p 0)
      = (m ((c : Thread nD τ).loc main_arg2) : S16384.Idx → BitVec 32)
          (ix1 (⟨(tileOf t).val * 256 + p.val, by have := (tileOf t).isLt; have := p.isLt; omega⟩ : Fin 16384)) := by
  obtain ⟨-, -, e10, e11, -⟩ := idx_facts t
  have hp := p.isLt
  unfold iblk
  rw [View.read_apply]
  show V m c main_v0 _ = _
  rw [V_idx]
  refine shapeCast_apply _ shapeCasts_S16384_S16384x1 _ _ ?_
  rewrite [Shape.rowMajor_val_one, Shape.rowMajor_val_two]
  show t.val * 256 + p.val = (win0_1.index t (0 : Fin 2) * 256 + 1 * p.val) * 1 + (win0_1.index t (1 : Fin 2) * 1 + 1 * 0)
  rw [e10, e11]
  omega

/-- Row p, column q of tile t's input rows is the input at row 256 t + p. -/
theorem blk_x (c : Dev nD) (t : Fin cfg0.N) (p : Fin 256) (q : Fin 448) :
    (iblk m c 0 t : FVec Ideal S256x448 .f32) (ix2 p q)
      = (m ((c : Thread nD τ).loc main_arg1) : S16384x448.Idx → EReal)
          (ix2 (⟨(tileOf t).val * 256 + p.val, by have := (tileOf t).isLt; have := p.isLt; omega⟩ : Fin 16384) q) := by
  obtain ⟨e00, e01, -⟩ := idx_facts t
  unfold iblk
  rw [View.read_apply]
  show V m c main_arg1 _ = _
  rw [V_main_arg1]
  refine congrArg _ (funext fun a => Fin.ext ?_)
  match a with
  | ⟨0, _⟩ => show win0_0.index t (0 : Fin 2) * 256 + 1 * p.val = t.val * 256 + p.val; rw [e00]; omega
  | ⟨1, _⟩ => show win0_0.index t (1 : Fin 2) * 448 + 1 * q.val = q.val; rw [e01]; omega

/-- Every tile stages the whole weight table. -/
theorem blk_w (c : Dev nD) (t : Fin cfg0.N) (r : Fin 64) (q : Fin 14336) :
    (iblk m c 2 t : FVec Ideal S64x14336 .f32) (ix2 r q)
      = (m ((c : Thread nD τ).loc main_arg0) : S64x14336.Idx → EReal) (ix2 r q) := by
  obtain ⟨-, -, -, -, e20, e21, -⟩ := idx_facts t
  unfold iblk
  rw [View.read_apply]
  show V m c main_arg0 _ = _
  rw [V_main_arg0]
  refine congrArg _ (funext fun a => Fin.ext ?_)
  match a with
  | ⟨0, _⟩ => show win0_2.index t (0 : Fin 2) * 64 + 1 * r.val = r.val; rw [e20]; omega
  | ⟨1, _⟩ => show win0_2.index t (1 : Fin 2) * 14336 + 1 * q.val = q.val; rw [e21]; omega

/-- The function of the argument arrays as launched. -/
abbrev final (c : Dev nD) : S16384x448.Idx → EReal :=
  result (m ((c : Thread nD τ).loc main_arg0)) (m ((c : Thread nD τ).loc main_arg1)) (m ((c : Thread nD τ).loc main_arg2))

/-- What tile t writes back is the function's rows of the tile. -/
theorem flushed_eq (hidx : ∀ (c : Dev nD) (b : Fin 16384), ((m ((c : Thread nD τ).loc main_arg2) : S16384.Idx → BitVec 32) (ix1 b)).toNat < 64)
    (c : Dev nD) (t : Fin cfg0.N) :
    (dats m 0 c).flushed 3 t = ((cfg0.win 3).blk t).view.read (Elt Ideal) (final m c) := by
  obtain ⟨-, -, -, -, -, -, e30, e31⟩ := idx_facts t
  rw [Cert.KernelIdeal.Value.flushed3]
  unfold out0_3
  rw [View.canon_unit_zero hz]
  simp only [View.ld_unit_zero (S := S256x1) hz, View.ld_unit_zero (S := S256x448) hz, View.ld_unit_zero (S := S64x14336) hz]
  funext y
  show k0_pay1 (F := Ideal) (iblk m c 1 t) (iblk m c 0 t) (iblk m c 2 t) y = final m c (((cfg0.win 3).blk t).view.emb y)
  refine (Ker.tile_eq_at (m ((c : Thread nD τ).loc main_arg0)) (m ((c : Thread nD τ).loc main_arg1)) (m ((c : Thread nD τ).loc main_arg2))
    (hidx c) (tileOf t) (iblk m c 1 t) (iblk m c 0 t) (iblk m c 2 t) (blk_idx m c t) (blk_x m c t) (blk_w m c t) y).trans ?_
  refine congrArg (final m c) (funext fun a => Fin.ext ?_)
  match a with
  | ⟨0, _⟩ =>
    show t.val * 256 + (y 0).val = win0_3.index t (0 : Fin 2) * 256 + 1 * (y 0).val
    rw [e30]; omega
  | ⟨1, _⟩ =>
    show (y 1).val = win0_3.index t (1 : Fin 2) * 448 + 1 * (y 1).val
    rw [e31]; omega

/-- An index of the result array is in tile t's block iff each coordinate is in the block's range on its axis. -/
theorem mem_blk (t : Fin cfg0.N) (i : S16384x448.Idx) :
    i ∈ ((cfg0.win 3).blk t).view.set ↔ ∀ a : Fin 2, win0_3.index t a * S256x448.size a ≤ (i a).val
      ∧ (i a).val < win0_3.index t a * S256x448.size a + S256x448.size a := by
  show i ∈ ((View.whole main_v1).slice (win0_3.rect t)).set ↔ _
  rw [View.set_slice_whole, Rect.mem_set_unit]
  exact Iff.rfl

/-- The result array after the run is the function: row r lies in tile r / 256. -/
theorem final_eq (hidx : ∀ (c : Dev nD) (b : Fin 16384), ((m ((c : Thread nD τ).loc main_arg2) : S16384.Idx → BitVec 32) (ix1 b)).toNat < 64)
    (c : Dev nD) : (dats m 0 c).arrAt 3 cfg0.N = final m c :=
  (dats m 0 c).arrAt_eq_of_cover 3 (final m c) (fun t _ => flushed_eq m hidx c t) fun i => by
    have hi0 : (i 0).val < 16384 := (i 0).isLt
    have hi1 : (i 1).val < 448 := (i 1).isLt
    have hN : cfg0.N = 64 := N_0
    have ht : (i 0).val / 256 < cfg0.N := by omega
    obtain ⟨-, -, -, -, -, -, e30, e31⟩ := idx_facts ⟨(i 0).val / 256, ht⟩
    refine ⟨⟨(i 0).val / 256, ht⟩, flush0_3 _, ?_⟩
    rw [mem_blk]
    intro a
    match a with
    | ⟨0, _⟩ =>
      show win0_3.index ⟨(i 0).val / 256, ht⟩ (0 : Fin 2) * 256 ≤ (i 0).val
        ∧ (i 0).val < win0_3.index ⟨(i 0).val / 256, ht⟩ (0 : Fin 2) * 256 + 256
      rw [e30]
      show (i 0).val / 256 * 256 ≤ (i 0).val ∧ (i 0).val < (i 0).val / 256 * 256 + 256
      omega
    | ⟨1, _⟩ =>
      show win0_3.index ⟨(i 0).val / 256, ht⟩ (1 : Fin 2) * 448 ≤ (i 1).val
        ∧ (i 1).val < win0_3.index ⟨(i 0).val / 256, ht⟩ (1 : Fin 2) * 448 + 448
      rw [e31]
      omega

/-- The kernel's run ends with the result array at the function of the arguments, the arguments unchanged. -/
theorem run (hidx : ∀ (c : Dev nD) (b : Fin 16384), ((m ((c : Thread nD τ).loc main_arg2) : S16384.Idx → BitVec 32) (ix1 b)).toNat < 64) :
    θ_run defs (onTc (τ := τ) (main (F := Ideal))) ⟨m, fun _ => 0, ρ⟩ fun r => ∀ c : Dev nD,
      r.2.mem ((c : Thread nD τ).loc main_v1) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_eq m hidx c), (h c).2⟩)
    (Cert.KernelIdeal.Value.run_blocks m ρ)

end Cert.SegLinear.KerRun

end
-- ==== Proof.lean ====
/-
  The certificate of an indexed, segmented linear map: every row b of a [16384, 448] input is cut into three blocks
  (96 × 1, 64 × 3, 32 × 5), each contracted with the square matrix (96 × 96, 64 × 64, 32 × 32) that row b's index
  word selects among 64 weight rows, y[b, o, c] = Σ_i W[idx b, i, o] · X[b, i, c], the three results laid side by side.

  The kernel works on tiles of 256 rows; it selects each row's weight matrices by multiplying a one-hot selector
  (index word against the column numbers 0 … 63) into the weight table, then contracts. The reference gathers the
  matrices by index and contracts. Over the extended reals the selector product has one non-zero term, the table
  row at the index word, so for index words in 0 … 63 — the range the precondition states, outside of which the
  reference's own gather would read out of range — both compute the same sums of the same products, term by term:
  no law beyond 0 · w = 0, 1 · w = w and a sum of zeros is used, and finiteness of the floats plays no part.
  The narrowing of the kernel's operands to a shorter float format is the identity on the extended reals.

  The three frames are the generated ones (the reference's is its generated run with the result dropped); the
  idealization rewrote nothing, so `preserves` is trivial; `algebraic` sets the kernel's run (the result array is
  `result` of the arguments, module KerRun) beside the reference's run (its result term is `result` of the
  arguments, module Ref).
-/
import proofs.«400696_j46497315947084_1_alg».proof.Defs
import proofs.«400696_j46497315947084_1_alg».proof.Proof.Gen.Kernel
import proofs.«400696_j46497315947084_1_alg».proof.Proof.Gen.Kernel.Skeleton
import proofs.«400696_j46497315947084_1_alg».proof.Proof.Gen.Kernel.Launch
import proofs.«400696_j46497315947084_1_alg».proof.Proof.Gen.Kernel.Points
import proofs.«400696_j46497315947084_1_alg».proof.Proof.Gen.Kernel.Frame
import proofs.«400696_j46497315947084_1_alg».proof.Proof.Gen.KernelIdeal
import proofs.«400696_j46497315947084_1_alg».proof.Proof.Gen.KernelIdeal.Skeleton
import proofs.«400696_j46497315947084_1_alg».proof.Proof.Gen.KernelIdeal.Launch
import proofs.«400696_j46497315947084_1_alg».proof.Proof.Gen.KernelIdeal.Points
import proofs.«400696_j46497315947084_1_alg».proof.Proof.Gen.KernelIdeal.Frame
import proofs.«400696_j46497315947084_1_alg».proof.Proof.Gen.ReferenceIdeal
import proofs.«400696_j46497315947084_1_alg».proof.Proof.Gen.Pre_finite_inputs
import proofs.«400696_j46497315947084_1_alg».proof.Proof.Gen.KernelIdeal.Value
import proofs.«400696_j46497315947084_1_alg».proof.Proof.Gen.ReferenceIdeal.Run
import proofs.«400696_j46497315947084_1_alg».proof.Proof.Gen.ReferenceIdeal.Read
import proofs.«400696_j46497315947084_1_alg».proof.Proof.PreRange
import proofs.«400696_j46497315947084_1_alg».proof.Proof.Ref
import proofs.«400696_j46497315947084_1_alg».proof.Proof.KerRun
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at `result` of the argument arrays: the kernel's by its tiles, the
    reference's by its three gathered contractions, the index words being in range by the precondition. -/
theorem algebraic : Cert.algebraic_KernelIdeal_ReferenceIdeal := by
  intro m ρ m' ρ' hpre hagree
  have hidx : ∀ (c : Dev Cert.KernelIdeal.nD) (b : Fin 16384),
      ((m ((c : Thread Cert.KernelIdeal.nD Cert.KernelIdeal.τ).loc Cert.KernelIdeal.main_arg2) :
        Cert.KernelIdeal.S16384.Idx → BitVec 32) (ix1 b)).toNat < 64 :=
    fun c b => Cert.SegLinear.PreRange.idx_lt_of_pre _ _ _ (hpre c) b
  refine ⟨fun c => Cert.SegLinear.KerRun.final m c, Cert.SegLinear.KerRun.run m ρ hidx, ?_⟩
  refine (θ_run Cert.ReferenceIdeal.defs _ _).mono (fun _ h c => ⟨(h c).1.trans ?_, (h c).2⟩)
    (Cert.ReferenceIdeal.Value.run (F := Ideal) m' ρ')
  show _ = Cert.SegLinear.KerRun.final m c
  rw [Cert.ReferenceIdeal.Read.val_main_v39_eq, (hagree c).1, (hagree c).2.1, (hagree c).2.2]
  exact Cert.SegLinear.Ref.ref_result _ _ _ (hidx c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
